-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x2048x1024 .f32) (main_arg1 : FVec F S3072x1024 .f32) (main_arg2 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x2048x1024 : Shape := ⟨3, ![4, 2048, 1024]⟩
abbrev S3072x1024 : Shape := ⟨2, ![3072, 1024]⟩
abbrev S1024x1024 : Shape := ⟨2, ![1024, 1024]⟩
abbrev S3072 : Shape := ⟨1, ![3072]⟩
abbrev S_ : Shape := ⟨0, ![]⟩
abbrev S3072x1 : Shape := ⟨2, ![3072, 1]⟩
abbrev S4x16x2048x64 : Shape := ⟨4, ![4, 16, 2048, 64]⟩
abbrev S1x512x1024 : Shape := ⟨3, ![1, 512, 1024]⟩
abbrev S1x16x512x64 : Shape := ⟨4, ![1, 16, 512, 64]⟩
abbrev S512x1024 : Shape := ⟨2, ![512, 1024]⟩
abbrev S512x3072 : Shape := ⟨2, ![512, 3072]⟩
abbrev S512x16x64 : Shape := ⟨3, ![512, 16, 64]⟩
abbrev S16x512x64 : Shape := ⟨3, ![16, 512, 64]⟩
abbrev S1x1x1024x64 : Shape := ⟨4, ![1, 1, 1024, 64]⟩
abbrev S1x1x2048x64 : Shape := ⟨4, ![1, 1, 2048, 64]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 19
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S3072, .i32⟩
  | .hbm, ⟨4, _⟩ => ⟨S3072, .i1⟩
  | .hbm, ⟨5, _⟩ => ⟨S_, .i32⟩
  | .hbm, ⟨6, _⟩ => ⟨S3072, .i32⟩
  | .hbm, ⟨7, _⟩ => ⟨S3072, .i32⟩
  | .hbm, ⟨8, _⟩ => ⟨S3072, .i32⟩
  | .hbm, ⟨9, _⟩ => ⟨S3072x1, .i32⟩
  | .hbm, ⟨10, _⟩ => ⟨S3072x1024, .f32⟩
  | .hbm, ⟨11, _⟩ => ⟨S4x2048x1024, .bf16⟩
  | .hbm, ⟨12, _⟩ => ⟨S3072x1024, .bf16⟩
  | .hbm, ⟨13, _⟩ => ⟨S1024x1024, .bf16⟩
  | .hbm, ⟨14, _⟩ => ⟨S4x16x2048x64, .bf16⟩
  | .hbm, ⟨15, _⟩ => ⟨S4x16x2048x64, .bf16⟩
  | .hbm, ⟨16, _⟩ => ⟨S4x16x2048x64, .bf16⟩
  | .hbm, ⟨17, _⟩ => ⟨S4x16x2048x64, .bf16⟩
  | .hbm, ⟨18, _⟩ => ⟨S4x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S3072x1024, .bf16⟩
  | .local _ .vmem, ⟨3, _⟩ => ⟨S1x16x512x64, .bf16⟩
  | .local _ .vmem, ⟨4, _⟩ => ⟨S1x16x512x64, .bf16⟩
  | .local _ .vmem, ⟨5, _⟩ => ⟨S1x16x512x64, .bf16⟩
  | .local _ .vmem, ⟨6, _⟩ => ⟨S1x16x512x64, .bf16⟩
  | .local _ .vmem, ⟨7, _⟩ => ⟨S1x16x512x64, .bf16⟩
  | .local _ .vmem, ⟨8, _⟩ => ⟨S1x16x512x64, .bf16⟩
  | .local _ .vmem, ⟨9, _⟩ => ⟨S1x1x1024x64, .bf16⟩
  | .local _ .vmem, ⟨10, _⟩ => ⟨S1x1x1024x64, .bf16⟩
  | .local _ .vmem, ⟨11, _⟩ => ⟨S1x1x2048x64, .bf16⟩
  | .local _ .vmem, ⟨12, _⟩ => ⟨S1x1x2048x64, .bf16⟩
  | .local _ .vmem, ⟨13, _⟩ => ⟨S1x1x2048x64, .bf16⟩
  | .local _ .vmem, ⟨14, _⟩ => ⟨S1x1x2048x64, .bf16⟩
  | .local _ .vmem, ⟨15, _⟩ => ⟨S1x1x1024x64, .bf16⟩
  | .local _ .vmem, ⟨16, _⟩ => ⟨S1x1x1024x64, .bf16⟩
  | .local _ .vmem, ⟨17, _⟩ => ⟨S1x16x512x64, .bf16⟩
  | .local _ .vmem, ⟨18, _⟩ => ⟨S1x16x512x64, .bf16⟩
  | .local _ .vmem, ⟨19, _⟩ => ⟨S1024x1024, .bf16⟩
  | .local _ .vmem, ⟨20, _⟩ => ⟨S1x512x1024, .f32⟩
  | .local _ .vmem, ⟨21, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![4, 16, 2], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨2, ![4, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x16x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bcast_S_S3072 : S_.BroadcastsInDim S3072 (![] : Fin 0 → Fin S3072.rank)
  bcast_S3072_S3072x1_0 : S3072.BroadcastsInDim S3072x1 (![0] : Fin 1 → Fin S3072x1.rank)
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  slices_S512x3072_o0_0_S512x1024 : S512x3072.Slices ![0, 0] S512x1024
  slices_S512x3072_o0_1024_S512x1024 : S512x3072.Slices ![0, 1024] S512x1024
  slices_S512x3072_o0_2048_S512x1024 : S512x3072.Slices ![0, 2048] S512x1024
  shapeCasts_S512x1024_S512x16x64 : S512x1024.ShapeCasts S512x16x64
  transposes_S512x16x64_p1_0_2_S16x512x64 : S512x16x64.Transposes [1, 0, 2] S16x512x64
  inb_S1x16x512x64_S1x16x512x64_0_0_0_0 : ∀ a, (![0, 0, 0, 0] : Fin 4 → Nat) a + S1x16x512x64.size a ≤ S1x16x512x64.size a
  h_S1x16x512x64 : 0 < S1x16x512x64.numel
  shapeCasts_S1x16x512x64_S16x512x64 : S1x16x512x64.ShapeCasts S16x512x64
  shapeCasts_S16x512x64_S1x16x512x64 : S16x512x64.ShapeCasts S1x16x512x64
  packedbf16_S1x16x512x64_S1x16x512x64_0_0_0_0 : (Rect.unit (s := S1x16x512x64) ![0, 0, 0, 0] S1x16x512x64.size inb_S1x16x512x64_S1x16x512x64_0_0_0_0).PackedRows (EltTy.packing .bf16)
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  shapeCasts_S1024x64_S1x1x1024x64 : S1024x64.ShapeCasts S1x1x1024x64
  packedbf16_S1x1x1024x64_S1x1x1024x64_0_0_0_0 : (Rect.unit (s := S1x1x1024x64) ![0, 0, 0, 0] S1x1x1024x64.size inb_S1x1x1024x64_S1x1x1024x64_0_0_0_0).PackedRows (EltTy.packing .bf16)
  transposes_S16x512x64_p1_0_2_S512x16x64 : S16x512x64.Transposes [1, 0, 2] S512x16x64
  shapeCasts_S512x16x64_S512x1024 : S512x16x64.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  gather_S3072x1024_S3072x1_S3072x1024_1_0_n_n_0_1_11024_wf : GatherDims.WF S3072x1024 S3072x1 S3072x1024 [1] [0] [] [0] [] 1 ![1, 1024]
  dot_S512x1024_S3072x1024_S512x3072_1_1_0_0_n_n_wf : DotDims.WF S512x1024 S3072x1024 S512x3072 [1] [1] [0] [0] [] []
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .bf16 = 32 ∨ (Rect.block (s := S4x2048x1024) S1x512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x512x64.size a ≤ S4x16x2048x64.size a
  hwx0_2 : ∀ i : grid0.Coords, EltTy.bits .bf16 = 32 ∨ (Rect.block (s := S4x16x2048x64) S1x16x512x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512x64.size a ≤ S4x16x2048x64.size a
  hwx0_3 : ∀ i : grid0.Coords, EltTy.bits .bf16 = 32 ∨ (Rect.block (s := S4x16x2048x64) S1x16x512x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x512x64.size a ≤ S4x16x2048x64.size a
  hwx0_4 : ∀ i : grid0.Coords, EltTy.bits .bf16 = 32 ∨ (Rect.block (s := S4x16x2048x64) S1x16x512x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x64.size a ≤ S4x16x2048x64.size a
  hwx1_0 : ∀ i : grid1.Coords, EltTy.bits .bf16 = 32 ∨ (Rect.block (s := S4x16x2048x64) S1x1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S4x16x2048x64.size a
  hwx1_1 : ∀ i : grid1.Coords, EltTy.bits .bf16 = 32 ∨ (Rect.block (s := S4x16x2048x64) S1x1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S4x16x2048x64.size a
  hwx1_2 : ∀ i : grid1.Coords, EltTy.bits .bf16 = 32 ∨ (Rect.block (s := S4x16x2048x64) S1x1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024x64.size a ≤ S4x16x2048x64.size a
  hwx1_3 : ∀ i : grid1.Coords, EltTy.bits .bf16 = 32 ∨ (Rect.block (s := S4x16x2048x64) S1x1x1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x512x64.size a ≤ S4x16x2048x64.size a
  hwx2_0 : ∀ i : grid2.Coords, EltTy.bits .bf16 = 32 ∨ (Rect.block (s := S4x16x2048x64) S1x16x512x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x1024.size a ≤ S4x2048x1024.size a
  hwx2_2 : ∀ i : grid2.Coords, EltTy.bits .f32 = 32 ∨ (Rect.block (s := S4x2048x1024) S1x512x1024.size (cc2_transform_2 i) (hinb2_2 i)).WholeWords (EltTy.packing .f32)

variable [Facts₀]

def gather_S3072x1024_S3072x1_S3072x1024_1_0_n_n_0_1_11024 : GatherDims S3072x1024 S3072x1 S3072x1024 where
  offsetDims := [1]
  collapsedSliceDims := [0]
  operandBatchingDims := []
  startIndicesBatchingDims := []
  startIndexMap := [0]
  indexVectorDim := 1
  sliceSizes := ![1, 1024]
  wf := gather_S3072x1024_S3072x1_S3072x1024_1_0_n_n_0_1_11024_wf
def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v5) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8_0) S1x16x512x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_1) S1x16x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_2) S1x16x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v8_0) S1x1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8_2) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S1x16x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S1024x1024 : Shape := ⟨2, ![1024, 1024]⟩
abbrev S4x2048x3072 : Shape := ⟨3, ![4, 2048, 3072]⟩
abbrev S4x2048x64x3x16 : Shape := ⟨5, ![4, 2048, 64, 3, 16]⟩
abbrev S3x4x16x2048x64 : Shape := ⟨5, ![3, 4, 16, 2048, 64]⟩
abbrev S1x4x16x2048x64 : Shape := ⟨5, ![1, 4, 16, 2048, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S4x2048x3072, .f32⟩
  | .hbm, ⟨4, _⟩ => ⟨S4x2048x64x3x16, .f32⟩
  | .hbm, ⟨5, _⟩ => ⟨S3x4x16x2048x64, .f32⟩
  | .hbm, ⟨6, _⟩ => ⟨S1x4x16x2048x64, .f32⟩
  | .hbm, ⟨7, _⟩ => ⟨S4x16x2048x64, .f32⟩
  | .hbm, ⟨8, _⟩ => ⟨S1x4x16x2048x64, .f32⟩
  | .hbm, ⟨9, _⟩ => ⟨S4x16x2048x64, .f32⟩
  | .hbm, ⟨10, _⟩ => ⟨S1x4x16x2048x64, .f32⟩
  | .hbm, ⟨11, _⟩ => ⟨S4x16x2048x64, .f32⟩
  | .hbm, ⟨12, _⟩ => ⟨S4x16x2048x2048, .f32⟩
  | .hbm, ⟨13, _⟩ => ⟨S_, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048, .f32⟩
  | .hbm, ⟨18, _⟩ => ⟨S_, .f32⟩
  | .hbm, ⟨19, _⟩ => ⟨S4x16x2048, .f32⟩
  | .hbm, ⟨20, _⟩ => ⟨S4x16x2048, .f32⟩
  | .hbm, ⟨21, _⟩ => ⟨S4x16x2048x1, .f32⟩
  | .hbm, ⟨22, _⟩ => ⟨S4x16x2048x2048, .f32⟩
  | .hbm, ⟨23, _⟩ => ⟨S4x16x2048x2048, .f32⟩
  | .hbm, ⟨24, _⟩ => ⟨S4x16x2048x2048, .f32⟩
  | .hbm, ⟨25, _⟩ => ⟨S_, .f32⟩
  | .hbm, ⟨26, _⟩ => ⟨S4x16x2048, .f32⟩
  | .hbm, ⟨27, _⟩ => ⟨S4x16x2048x1, .f32⟩
  | .hbm, ⟨28, _⟩ => ⟨S4x16x2048x2048, .f32⟩
  | .hbm, ⟨29, _⟩ => ⟨S4x16x2048x2048, .f32⟩
  | .hbm, ⟨30, _⟩ => ⟨S4x16x2048x64, .f32⟩
  | .hbm, ⟨31, _⟩ => ⟨S4x2048x16x64, .f32⟩
  | .hbm, ⟨32, _⟩ => ⟨S4x2048x1024, .f32⟩
  | .hbm, ⟨33, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]

class Facts₀ : Prop where
  shapeCasts_S4x2048x3072_S4x2048x64x3x16 : S4x2048x3072.ShapeCasts S4x2048x64x3x16
  transposes_S4x2048x64x3x16_S3x4x16x2048x64_3_0_4_1_2 : S4x2048x64x3x16.Transposes [3, 0, 4, 1, 2] S3x4x16x2048x64
  slices_S3x4x16x2048x64_S1x4x16x2048x64_0_0_0_0_0 : S3x4x16x2048x64.Slices ![0, 0, 0, 0, 0] S1x4x16x2048x64
  shapeCasts_S1x4x16x2048x64_S4x16x2048x64 : S1x4x16x2048x64.ShapeCasts S4x16x2048x64
  slices_S3x4x16x2048x64_S1x4x16x2048x64_1_0_0_0_0 : S3x4x16x2048x64.Slices ![1, 0, 0, 0, 0] S1x4x16x2048x64
  slices_S3x4x16x2048x64_S1x4x16x2048x64_2_0_0_0_0 : S3x4x16x2048x64.Slices ![2, 0, 0, 0, 0] S1x4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.Spec.lean ====
/-
  The mathematics both programs compute, over the extended reals, with every index a literal `Fin`.

  Multi-head attention over a batch of 4 sequences of 2048 tokens with 1024 channels, 16 heads of width 64:
  * a token's query, key and value entries are dot products of its 1024 channels with a row of the fused
    projection weight (`dot`);  which row serves entry (t, h, d) — t the query/key/value selector, h the head,
    d the lane — is the only thing the two programs arrange differently (`rowK` against `rowR`);
  * a query row's scores against the 2048 keys, scaled by 1/8: one program scales the query before the
    products (`scoreK`), the other the finished sum (`scoreR`); 1/8 is a nonnegative real, and a nonnegative
    real factor distributes over every sum of extended reals, so the two agree with no finiteness needed
    (`scoreK_eq_scoreR`);
  * the softmax of a score row through its maximum, and the attention output as the softmax-weighted sum of the
    value rows (`rowMax`, `softmax`, `attend`);
  * the output projection of the heads laid side by side (`outP`).
-/
import Idealize.ShloMosaic.PureOps.Ideal
import Idealize.ShloMosaic.PureOps.Ideal.Laws
import Idealize.ShloMosaic.Lib.ValueIdx

noncomputable section

namespace Cert.Attn

open Idealize.ShloMosaic

/-- The float pattern of −∞ as both programs print it; it is the bottom of the extended reals. -/
abbrev negInf : EReal := Ideal.ofBits .f32 0xFF800000#32
/-- The float pattern of 1/8 as both programs print it. -/
abbrev scale : EReal := Ideal.ofBits .f32 0x3E000000#32

theorem negInf_eq : negInf = ⊥ := by simp [negInf, Ideal.ofBits, Ideal.ieee]

theorem scale_eq : scale = ((1 / 8 : ℝ) : EReal) := by
  simp [scale, Ideal.ofBits, Ideal.ieee, -EReal.coe_mul]; norm_num

/-- Dot product of two rows of 1024 channels. -/
def dot (x w : Fin 1024 → EReal) : EReal := ∑ e : Fin 1024, x e * w e

/-- The fused weight's row for entry (t, h, d) when the rows are ordered selector-major, lane-minor. -/
def rowK (t : Fin 3) (h : Fin 16) (d : Fin 64) : Fin 3072 :=
  ⟨t.val * 1024 + h.val * 64 + d.val, by have := t.isLt; have := h.isLt; have := d.isLt; omega⟩
/-- The fused weight's row for entry (t, h, d) when the rows are ordered lane-major, head-minor. -/
def rowR (t : Fin 3) (h : Fin 16) (d : Fin 64) : Fin 3072 :=
  ⟨d.val * 48 + t.val * 16 + h.val, by have := t.isLt; have := h.isLt; have := d.isLt; omega⟩

/-- Entry (b, h, s, d) of selector `t`'s projection: token (b, s) against the weight row `row t h d`. -/
def qkv (row : Fin 3 → Fin 16 → Fin 64 → Fin 3072) (X : Fin 4 → Fin 2048 → Fin 1024 → EReal)
    (W : Fin 3072 → Fin 1024 → EReal) (t : Fin 3) (b : Fin 4) (h : Fin 16) (s : Fin 2048) (d : Fin 64) : EReal :=
  dot (X b s) (W (row t h d))

/-- A query's score against key `j`, the query scaled first. -/
def scoreK (q : Fin 64 → EReal) (k : Fin 2048 → Fin 64 → EReal) (j : Fin 2048) : EReal :=
  ∑ d : Fin 64, (q d * scale) * k j d
/-- A query's score against key `j`, the sum scaled afterwards. -/
def scoreR (q : Fin 64 → EReal) (k : Fin 2048 → Fin 64 → EReal) (j : Fin 2048) : EReal :=
  (∑ d : Fin 64, q d * k j d) * scale

/-- The maximum of a score row, folded from −∞. -/
def rowMax (s : Fin 2048 → EReal) : EReal := (Finset.univ : Finset (Fin 2048)).fold max negInf s
/-- The softmax weight of key `j` in a score row. -/
def softmax (s : Fin 2048 → EReal) (j : Fin 2048) : EReal :=
  Ideal.div (Ideal.exp (s j - rowMax s)) (∑ j' : Fin 2048, Ideal.exp (s j' - rowMax s))
/-- Lane `d` of the attention output of a score row over the value rows. -/
def attend (s : Fin 2048 → EReal) (v : Fin 2048 → Fin 64 → EReal) (d : Fin 64) : EReal :=
  ∑ j : Fin 2048, softmax s j * v j d

/-- Attention output entry (b, h, i, d) from the projected queries, keys and values, for a score function. -/
def attn (score : (Fin 64 → EReal) → (Fin 2048 → Fin 64 → EReal) → Fin 2048 → EReal)
    (Q K V : Fin 4 → Fin 16 → Fin 2048 → Fin 64 → EReal) (b : Fin 4) (h : Fin 16) (i : Fin 2048) (d : Fin 64) : EReal :=
  attend (score (Q b h i) (K b h)) (V b h) d

/-- Channel `e` of the heads laid side by side belongs to head `e / 64`, lane `e % 64`. -/
def headOf (e : Fin 1024) : Fin 16 := ⟨e.val / 64, by have := e.isLt; omega⟩
def laneOf (e : Fin 1024) : Fin 64 := ⟨e.val % 64, Nat.mod_lt _ (by decide)⟩

/-- Output entry (b, s, f): token (b, s)'s merged heads against row `f` of the output weight. -/
def outP (A : Fin 4 → Fin 16 → Fin 2048 → Fin 64 → EReal) (Wo : Fin 1024 → Fin 1024 → EReal)
    (b : Fin 4) (s : Fin 2048) (f : Fin 1024) : EReal :=
  ∑ e : Fin 1024, A b (headOf e) s (laneOf e) * Wo f e

/-- The whole computation, for a row order and a score function. -/
def mha (row : Fin 3 → Fin 16 → Fin 64 → Fin 3072)
    (score : (Fin 64 → EReal) → (Fin 2048 → Fin 64 → EReal) → Fin 2048 → EReal)
    (X : Fin 4 → Fin 2048 → Fin 1024 → EReal) (W : Fin 3072 → Fin 1024 → EReal) (Wo : Fin 1024 → Fin 1024 → EReal)
    (b : Fin 4) (s : Fin 2048) (f : Fin 1024) : EReal :=
  outP (attn score (qkv row X W 0) (qkv row X W 1) (qkv row X W 2)) Wo b s f

/-- A nonnegative real factor moves out of a finite sum of extended reals. -/
theorem sum_mul_coe_of_nonneg {ι : Type*} (s : Finset ι) (f : ι → EReal) {c : ℝ} (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- Scaling the query before the products or the sum after them is one score. -/
theorem scoreK_eq_scoreR : scoreK = scoreR := by
  funext q k j
  unfold scoreK scoreR
  rw [scale_eq, ← sum_mul_coe_of_nonneg _ _ (by norm_num : (0 : ℝ) ≤ 1 / 8)]
  refine Finset.sum_congr rfl fun d _ => ?_
  rw [mul_assoc, mul_comm ((1 / 8 : ℝ) : EReal), ← mul_assoc]

end Cert.Attn

end
-- ==== Proof.Region0.lean ====
/-
  The first region, read as values: after its last grid point the three output arrays hold, at head h, token s
  and lane d of sequence b, the dot product of token (b, s)'s channels with row (t·1024 + h·64 + d) of the weight
  array the region was given — t = 0, 1, 2 for the query, key and value arrays.

  The road: the body's arithmetic read at an index (the product of the token block with the weight rows, cut into
  three column slices, each slice cut into heads and the head axis put first); each input block read off its array
  at the block index the point names; what a point writes back as a block of one whole-array function; every index
  of an output array lies in some point's block; so the array ends holding that function.
-/
import proofs.«410984_j6485400617573_3_alg».proof.Proof.Gen.KernelIdeal.Frame
import proofs.«410984_j6485400617573_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.AttnK.Region0

open Idealize.ShloMosaic Idealize.ShloMosaic.TcCoe Idealize.SL.Sem Idealize.ShloMosaic.Pipeline Idealize.ShloMosaic.ValueIdx
open Cert.KernelIdeal Cert.KernelIdeal.Gen

/-! ## The contraction's operand indices, axis by axis -/

theorem lhs_mm_0 (i : S512x3072.Idx) (q : dot_S512x1024_S3072x1024_S512x3072_1_1_0_0_n_n.contr.Idx) :
    (dot_S512x1024_S3072x1024_S512x3072_1_1_0_0_n_n.lhsIdx i q 0).val = (i 0).val := by
  unfold DotDims.lhsIdx
  rw [dif_neg (show ¬(0 : Fin S512x1024.rank) ∈ dot_S512x1024_S3072x1024_S512x3072_1_1_0_0_n_n.lhsBatch by decide), dif_pos (show (0 : Fin S512x1024.rank) ∈ dot_S512x1024_S3072x1024_S512x3072_1_1_0_0_n_n.lhsNonContracting by decide)]
  rfl
theorem lhs_mm_1 (i : S512x3072.Idx) (q : dot_S512x1024_S3072x1024_S512x3072_1_1_0_0_n_n.contr.Idx) :
    (dot_S512x1024_S3072x1024_S512x3072_1_1_0_0_n_n.lhsIdx i q 1).val = (q ⟨0, by decide⟩).val :=
  dot_S512x1024_S3072x1024_S512x3072_1_1_0_0_n_n.lhsIdx_val_of_single rfl i q
theorem rhs_mm_0 (i : S512x3072.Idx) (q : dot_S512x1024_S3072x1024_S512x3072_1_1_0_0_n_n.contr.Idx) :
    (dot_S512x1024_S3072x1024_S512x3072_1_1_0_0_n_n.rhsIdx i q 0).val = (i 1).val := by
  unfold DotDims.rhsIdx
  rw [dif_neg (show ¬(0 : Fin S3072x1024.rank) ∈ dot_S512x1024_S3072x1024_S512x3072_1_1_0_0_n_n.rhsBatch by decide), dif_pos (show (0 : Fin S3072x1024.rank) ∈ dot_S512x1024_S3072x1024_S512x3072_1_1_0_0_n_n.rhsNonContracting by decide)]
  rfl
theorem rhs_mm_1 (i : S512x3072.Idx) (q : dot_S512x1024_S3072x1024_S512x3072_1_1_0_0_n_n.contr.Idx) :
    (dot_S512x1024_S3072x1024_S512x3072_1_1_0_0_n_n.rhsIdx i q 1).val = (q ⟨0, by decide⟩).val :=
  dot_S512x1024_S3072x1024_S512x3072_1_1_0_0_n_n.rhsIdx_val_of_single rfl i q

/-- The product of a block of 512 tokens with the 3072 weight rows, read at token `s` and row `r`: the sum over
    the 1024 channels. -/
theorem mm_apply (a : FVec Ideal S512x1024 .bf16) (w : FVec Ideal S3072x1024 .bf16) (s : Fin 512) (r : Fin 3072) :
    FloatOps.matmul dot_S512x1024_S3072x1024_S512x3072_1_1_0_0_n_n none a w (constant S512x3072 .f32 0x00000000#32) (ix2 s r)
      = ∑ e : Fin 1024, a (ix2 s e) * w (ix2 r e) := by
  rw [Ideal.matmul_constant_zero_apply, ← Equiv.sum_comp (contrEquiv1 dot_S512x1024_S3072x1024_S512x3072_1_1_0_0_n_n 1024 rfl rfl).symm]
  refine Finset.sum_congr rfl fun k _ => ?_
  have hk := contrEquiv1_symm_val dot_S512x1024_S3072x1024_S512x3072_1_1_0_0_n_n 1024 rfl rfl k
  have el : dot_S512x1024_S3072x1024_S512x3072_1_1_0_0_n_n.lhsIdx (ix2 s r) ((contrEquiv1 dot_S512x1024_S3072x1024_S512x3072_1_1_0_0_n_n 1024 rfl rfl).symm k) = ix2 s k := funext fun a => Fin.ext (by
    match a with
    | ⟨0, _⟩ => exact lhs_mm_0 _ _
    | ⟨1, _⟩ => exact (lhs_mm_1 _ _).trans hk)
  have er : dot_S512x1024_S3072x1024_S512x3072_1_1_0_0_n_n.rhsIdx (ix2 s r) ((contrEquiv1 dot_S512x1024_S3072x1024_S512x3072_1_1_0_0_n_n 1024 rfl rfl).symm k) = ix2 r k := funext fun a => Fin.ext (by
    match a with
    | ⟨0, _⟩ => exact rhs_mm_0 _ _
    | ⟨1, _⟩ => exact (rhs_mm_1 _ _).trans hk)
  rw [el, er]

/-! ## The body's arithmetic, read at an index -/

/-- The block's projection before it is cut into the three arrays: token `s` of the block against weight row `r`. -/
theorem pay1_apply (x0 : FVec Ideal S1x512x1024 .bf16) (x1 : FVec Ideal S3072x1024 .bf16) (s : Fin 512) (r : Fin 3072) :
    k0_pay1 (F := Ideal) x0 x1 (ix2 s r) = ∑ e : Fin 1024, x0 (ix3 (0 : Fin 1) s e) * x1 (ix2 r e) := by
  unfold k0_pay1
  refine (mm_apply _ _ s r).trans (Finset.sum_congr rfl fun e _ => ?_)
  congr 1
  · refine shapeCast_apply x0 _ (ix2 s e) (ix3 (0 : Fin 1) s e) ?_
    rw [Shape.rowMajor_val_three, Shape.rowMajor_val_two]
    show ((0 : Fin 1).val * 512 + s.val) * 1024 + e.val = s.val * 1024 + e.val
    simp
  · exact congrFun (shapeCast_self x1 _) (ix2 r e)

/-- Cutting a row of 1024 entries into 16 heads of 64 lanes and putting the head axis first: entry (h, s, d) of the
    result is entry (s, 64·h + d) of the operand. -/
theorem heads_apply (v : FVec Ideal S512x1024 .bf16) (hc1 : S512x1024.ShapeCasts S512x16x64)
    (ht : S512x16x64.Transposes [1, 0, 2] S16x512x64) (hc2 : S16x512x64.ShapeCasts S1x16x512x64)
    (h : Fin 16) (s : Fin 512) (d : Fin 64) (c : Fin 1024) (hcv : c.val = h.val * 64 + d.val) :
    shapeCast S1x16x512x64 (transpose S16x512x64 [1, 0, 2] (shapeCast S512x16x64 v hc1) ht) hc2 (ix4 (0 : Fin 1) h s d)
      = v (ix2 s c) := by
  refine (shapeCast_apply _ hc2 (ix4 (0 : Fin 1) h s d) (ix3 h s d) ?_).trans ?_
  · rw [Shape.rowMajor_val_three, Shape.rowMajor_val_four]
    show (h.val * 512 + s.val) * 64 + d.val = (((0 : Fin 1).val * 16 + h.val) * 512 + s.val) * 64 + d.val
    simp
  refine (transpose_apply [1, 0, 2] _ ht (ix3 h s d) (ix3 s h d) ?_).trans ?_
  · intro b
    match b with
    | ⟨0, _⟩ => rfl
    | ⟨1, _⟩ => rfl
    | ⟨2, _⟩ => rfl
  refine shapeCast_apply v hc1 (ix3 s h d) (ix2 s c) ?_
  rw [Shape.rowMajor_val_three, Shape.rowMajor_val_two]
  show s.val * 1024 + c.val = (s.val * 16 + h.val) * 64 + d.val
  omega

/-- The slice of 1024 columns at column offset `o`, read at (s, c), is the operand at (s, o + c). -/
theorem slice_apply (o : Nat) (p : FVec Ideal S512x3072 .bf16) (hs : S512x3072.Slices ![0, o] S512x1024)
    (s : Fin 512) (c : Fin 1024) (r : Fin 3072) (hr : r.val = o + c.val) :
    extractStridedSlice S512x1024 ![0, o] p hs (ix2 s c) = p (ix2 s r) := by
  refine extractStridedSlice_apply ![0, o] p hs (ix2 s c) (ix2 s r) fun a => ?_
  match a with
  | ⟨0, _⟩ => show s.val = 0 + s.val; omega
  | ⟨1, _⟩ => show r.val = o + c.val; exact hr

/-- Entry (h, s, d) of what the body stores into the query block. -/
theorem pay2_apply (x0 : FVec Ideal S1x512x1024 .bf16) (x1 : FVec Ideal S3072x1024 .bf16) (h : Fin 16) (s : Fin 512) (d : Fin 64)
    (r : Fin 3072) (hr : r.val = 0 + h.val * 64 + d.val) :
    k0_pay2 (F := Ideal) x0 x1 (ix4 (0 : Fin 1) h s d) = ∑ e : Fin 1024, x0 (ix3 (0 : Fin 1) s e) * x1 (ix2 r e) := by
  unfold k0_pay2
  refine (heads_apply _ _ _ _ h s d ⟨h.val * 64 + d.val, by have := h.isLt; have := d.isLt; omega⟩ rfl).trans ?_
  refine (slice_apply 0 _ _ s _ r ?_).trans (pay1_apply x0 x1 s r)
  show r.val = 0 + (h.val * 64 + d.val); omega

/-- Entry (h, s, d) of what the body stores into the key block. -/
theorem pay3_apply (x0 : FVec Ideal S1x512x1024 .bf16) (x1 : FVec Ideal S3072x1024 .bf16) (h : Fin 16) (s : Fin 512) (d : Fin 64)
    (r : Fin 3072) (hr : r.val = 1024 + h.val * 64 + d.val) :
    k0_pay3 (F := Ideal) x0 x1 (ix4 (0 : Fin 1) h s d) = ∑ e : Fin 1024, x0 (ix3 (0 : Fin 1) s e) * x1 (ix2 r e) := by
  unfold k0_pay3
  refine (heads_apply _ _ _ _ h s d ⟨h.val * 64 + d.val, by have := h.isLt; have := d.isLt; omega⟩ rfl).trans ?_
  refine (slice_apply 1024 _ _ s _ r ?_).trans (pay1_apply x0 x1 s r)
  show r.val = 1024 + (h.val * 64 + d.val); omega

/-- Entry (h, s, d) of what the body stores into the value block. -/
theorem pay4_apply (x0 : FVec Ideal S1x512x1024 .bf16) (x1 : FVec Ideal S3072x1024 .bf16) (h : Fin 16) (s : Fin 512) (d : Fin 64)
    (r : Fin 3072) (hr : r.val = 2048 + h.val * 64 + d.val) :
    k0_pay4 (F := Ideal) x0 x1 (ix4 (0 : Fin 1) h s d) = ∑ e : Fin 1024, x0 (ix3 (0 : Fin 1) s e) * x1 (ix2 r e) := by
  unfold k0_pay4
  refine (heads_apply _ _ _ _ h s d ⟨h.val * 64 + d.val, by have := h.isLt; have := d.isLt; omega⟩ rfl).trans ?_
  refine (slice_apply 2048 _ _ s _ r ?_).trans (pay1_apply x0 x1 s r)
  show r.val = 2048 + (h.val * 64 + d.val); omega

-- the TensorCore's buffer contents when the region is entered: every statement here holds for any
variable (V : (c : Dev nD) → (b : Ref sig .tc) → Buf (Elt Ideal) ((c : Thread nD τ).loc b))

/-! ## From the blocks to the arrays -/

/-- What selector `t`'s array ends holding, as one function of the token array `X` and the weight array `W`. -/
def proj (t : Fin 3) (X : S4x2048x1024.Idx → EReal) (W : S3072x1024.Idx → EReal) : S4x16x2048x64.Idx → EReal :=
  fun i => Attn.qkv Attn.rowK (fun b s e => X (ix3 b s e)) (fun r e => W (ix2 r e)) t (i 0) (i 1) (i 2) (i 3)

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- One entry of a stored block is the array's entry under it: the block's payload `pay` at (h, s, d) is the sum over
    the channels of the token block `x0` against row `off + 64·h + d` of the weight block `x1` (`hpay`), the token block
    holds the tokens of sequence `i 0` that lie under it (`hx0`) and the weight block the whole weight array (`hx1`). -/
theorem block_entry (t : Fin 3) (off : Nat) (hoff : t.val * 1024 = off) (X : S4x2048x1024.Idx → EReal) (W : S3072x1024.Idx → EReal)
    (x0 : FVec Ideal S1x512x1024 .bf16) (x1 : FVec Ideal S3072x1024 .bf16) (pay : FVec Ideal S1x16x512x64 .bf16)
    (hpay : ∀ (h : Fin 16) (s : Fin 512) (d : Fin 64) (r : Fin 3072), r.val = off + h.val * 64 + d.val →
      pay (ix4 (0 : Fin 1) h s d) = ∑ e : Fin 1024, x0 (ix3 (0 : Fin 1) s e) * x1 (ix2 r e))
    (j : S1x16x512x64.Idx) (i : S4x16x2048x64.Idx)
    (hx0 : ∀ e : Fin 1024, x0 (ix3 (0 : Fin 1) (j 2) e) = X (ix3 (i 0) (i 2) e))
    (hx1 : ∀ (r : Fin 3072) (e : Fin 1024), x1 (ix2 r e) = W (ix2 r e))
    (h1 : (i 1).val = (j 1).val) (h3 : (i 3).val = (j 3).val) :
    pay j = proj t X W i := by
  have hj : j = ix4 (0 : Fin 1) (j 1) (j 2) (j 3) := by
    funext a
    match a with
    | ⟨0, _⟩ => exact Fin.ext (by have h0 : (j 0).val < 1 := (j 0).isLt; show (j 0).val = 0; omega)
    | ⟨1, _⟩ => rfl
    | ⟨2, _⟩ => rfl
    | ⟨3, _⟩ => rfl
  rw [hj]
  refine (hpay (j 1) (j 2) (j 3) (Attn.rowK t (i 1) (i 3)) ?_).trans ?_
  · show t.val * 1024 + (i 1).val * 64 + (i 3).val = off + (j 1).val * 64 + (j 3).val
    omega
  · show _ = ∑ e : Fin 1024, X (ix3 (i 0) (i 2) e) * W (ix2 (Attn.rowK t (i 1) (i 3)) e)
    exact Finset.sum_congr rfl fun e _ => congrArg₂ (· * ·) (hx0 e) (hx1 _ e)

/-- The printed index maps, decided over the grid: the token window's block index is (sequence, token block, 0) with
    both in range, the weight window's is (0, 0). -/
theorem in_blocks : ∀ t : Fin cfg0.N, win0_0.index t (0 : Fin 3) < 4 ∧ win0_0.index t (1 : Fin 3) < 4
    ∧ win0_0.index t (2 : Fin 3) = 0 ∧ win0_1.index t (0 : Fin 2) = 0 ∧ win0_1.index t (1 : Fin 2) = 0 :=
  (by decide +kernel : ∀ t : Fin grid0.N, _)

/-- The token window's block at point `t`, read at (0, s, e), is the token array at the sequence and token the block's
    index names. -/
theorem tokens_apply (c : Dev nD) (t : Fin cfg0.N) (s : Fin 512) (e : Fin 1024) (b' : Fin 4) (s' : Fin 2048)
    (hb : b'.val = win0_0.index t (0 : Fin 3)) (hs : s'.val = win0_0.index t (1 : Fin 3) * 512 + s.val) :
    (iblk0 V c 0 t : S1x512x1024.Idx → EReal) (ix3 (0 : Fin 1) s e) = (V c main_v5 : S4x2048x1024.Idx → EReal) (ix3 b' s' e) := by
  obtain ⟨-, -, e2, -, -⟩ := in_blocks t
  show (V c main_v5 : S4x2048x1024.Idx → EReal) (((cfg0.win 0).blk t).view.emb (ix3 (0 : Fin 1) s e)) = _
  refine congrArg _ (funext fun a => Fin.ext ?_)
  match a with
  | ⟨0, _⟩ => show win0_0.index t (0 : Fin 3) * 1 + 1 * (0 : Fin 1).val = b'.val; rw [hb]; simp
  | ⟨1, _⟩ => show win0_0.index t (1 : Fin 3) * 512 + 1 * s.val = s'.val; omega
  | ⟨2, _⟩ => show win0_0.index t (2 : Fin 3) * 1024 + 1 * e.val = e.val; omega

/-- The weight window's block at any point is the whole weight array. -/
theorem weights_apply (c : Dev nD) (t : Fin cfg0.N) (r : Fin 3072) (e : Fin 1024) :
    (iblk0 V c 1 t : S3072x1024.Idx → EReal) (ix2 r e) = (V c main_v6 : S3072x1024.Idx → EReal) (ix2 r e) := by
  obtain ⟨-, -, -, e3, e4⟩ := in_blocks t
  show (V c main_v6 : S3072x1024.Idx → EReal) (((cfg0.win 1).blk t).view.emb (ix2 r e)) = _
  refine congrArg _ (funext fun a => Fin.ext ?_)
  match a with
  | ⟨0, _⟩ => show win0_1.index t (0 : Fin 2) * 3072 + 1 * r.val = r.val; omega
  | ⟨1, _⟩ => show win0_1.index t (1 : Fin 2) * 1024 + 1 * e.val = e.val; omega

/-! ## The query array (output window 2) -/

/-- The query window's block index, decided over the grid: it is (sequence, 0, token block, 0), the sequence and the
    token block the token window's. -/
theorem out_blocks_q : ∀ t : Fin cfg0.N, win0_2.index t (0 : Fin 4) = win0_0.index t (0 : Fin 3)
    ∧ win0_2.index t (1 : Fin 4) = 0 ∧ win0_2.index t (2 : Fin 4) = win0_0.index t (1 : Fin 3)
    ∧ win0_2.index t (3 : Fin 4) = 0 :=
  (by decide +kernel : ∀ t : Fin grid0.N, _)

/-- Every (sequence, token block) pair is some point's. -/
theorem out_onto_q : ∀ (q0 : Fin 4) (q2 : Fin 4), ∃ t : Fin cfg0.N, win0_2.index t = ![q0.val, 0, q2.val, 0] :=
  (by decide +kernel : ∀ (q0 : Fin 4) (q2 : Fin 4), ∃ t : Fin grid0.N, win0_2.index t = ![q0.val, 0, q2.val, 0])

/-- What point `t` writes back is block `t` of `proj 0` of the token and weight arrays as the region finds them. -/
theorem flushed_q (c : Dev nD) (t : Fin cfg0.N) :
    (dat0 V c).flushed 2 t = ((cfg0.win 2).blk t).view.read (Elt Ideal) (proj 0 (V c main_v5) (V c main_v6)) := by
  show (cfg0.win 2).cut (grid0.coords t) ((dat0 V c).after 2 t) = _
  rw [after0_2]
  unfold out0_2
  rw [View.canon_unit_zero zeros4]
  simp only [View.ld_unit_zero (S := S1x512x1024) zeros3, View.ld_unit_zero (S := S3072x1024) zeros2]
  obtain ⟨f0, f1, f2, f3⟩ := out_blocks_q t
  obtain ⟨g0, g1, -, -, -⟩ := in_blocks t
  funext y
  show k0_pay2 (F := Ideal) (iblk0 V c 0 t) (iblk0 V c 1 t) y
    = proj 0 (V c main_v5) (V c main_v6) (((cfg0.win 2).blk t).view.emb y)
  have y0 : (y 0).val < 1 := (y 0).isLt
  have y1 : (y 1).val < 16 := (y 1).isLt
  have y2 : (y 2).val < 512 := (y 2).isLt
  have y3 : (y 3).val < 64 := (y 3).isLt
  refine block_entry 0 0 rfl (V c main_v5) (V c main_v6) (iblk0 V c 0 t) (iblk0 V c 1 t)
    (k0_pay2 (F := Ideal) (iblk0 V c 0 t) (iblk0 V c 1 t)) (fun h s d r hr => pay2_apply _ _ h s d r hr)
    y (((cfg0.win 2).blk t).view.emb y) (fun e => ?_) (fun r e => weights_apply V c t r e) ?_ ?_
  · refine tokens_apply V c t (y 2) e _ _ ?_ ?_
    · show win0_2.index t (0 : Fin 4) * 1 + 1 * (y 0).val = win0_0.index t (0 : Fin 3); omega
    · show win0_2.index t (2 : Fin 4) * 512 + 1 * (y 2).val = win0_0.index t (1 : Fin 3) * 512 + (y 2).val; omega
  · show win0_2.index t (1 : Fin 4) * 16 + 1 * (y 1).val = (y 1).val; omega
  · show win0_2.index t (3 : Fin 4) * 64 + 1 * (y 3).val = (y 3).val; omega

/-- An index of the array is in point `t`'s block iff each coordinate is in the block's range on its axis. -/
theorem mem_block_q (t : Fin cfg0.N) (i : S4x16x2048x64.Idx) :
    i ∈ ((cfg0.win 2).blk t).view.set ↔ ∀ a : Fin 4, win0_2.index t a * S1x16x512x64.size a ≤ (i a).val
      ∧ (i a).val < win0_2.index t a * S1x16x512x64.size a + S1x16x512x64.size a := by
  show i ∈ ((View.whole main_v8_0).slice (win0_2.rect t)).set ↔ _
  rw [View.set_slice_whole, Rect.mem_set_unit]
  exact Iff.rfl

/-- Every index of the array lies in the block of the point its sequence and its token's block name. -/
theorem cover_q (i : S4x16x2048x64.Idx) :
    ∃ t : Fin cfg0.N, (cfg0.win 2).flush t = true ∧ i ∈ ((cfg0.win 2).blk t).view.set := by
  have i0 : (i 0).val < 4 := (i 0).isLt
  have i1 : (i 1).val < 16 := (i 1).isLt
  have i2 : (i 2).val < 2048 := (i 2).isLt
  have i3 : (i 3).val < 64 := (i 3).isLt
  obtain ⟨t, ht⟩ := out_onto_q ⟨(i 0).val, i0⟩ ⟨(i 2).val / 512, by omega⟩
  have q0 : win0_2.index t (0 : Fin 4) = (i 0).val := congrFun ht 0
  have q1 : win0_2.index t (1 : Fin 4) = 0 := congrFun ht 1
  have q2 : win0_2.index t (2 : Fin 4) = (i 2).val / 512 := congrFun ht 2
  have q3 : win0_2.index t (3 : Fin 4) = 0 := congrFun ht 3
  refine ⟨t, flush0_2 t, ?_⟩
  rw [mem_block_q]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 512 ≤ (i 2).val ∧ (i 2).val < win0_2.index t (2 : Fin 4) * 512 + 512; omega
  | ⟨3, _⟩ => show win0_2.index t (3 : Fin 4) * 64 ≤ (i 3).val ∧ (i 3).val < win0_2.index t (3 : Fin 4) * 64 + 64; omega

/-- The query array after the last point is `proj 0` of the token and weight arrays. -/
theorem array_q (c : Dev nD) : (dat0 V c).arrAt 2 cfg0.N = proj 0 (V c main_v5) (V c main_v6) :=
  (dat0 V c).arrAt_eq_of_cover 2 (proj 0 (V c main_v5) (V c main_v6)) (fun t _ => flushed_q V c t) (cover_q)

theorem final_q (c : Dev nD) (b : Fin 4) (h : Fin 16) (s : Fin 2048) (d : Fin 64) :
    ((dat0 V c).arrAt 2 cfg0.N : S4x16x2048x64.Idx → EReal) (ix4 b h s d)
      = Attn.qkv Attn.rowK (fun b s e => (V c main_v5 : S4x2048x1024.Idx → EReal) (ix3 b s e))
          (fun r e => (V c main_v6 : S3072x1024.Idx → EReal) (ix2 r e)) 0 b h s d :=
  congrFun (array_q V c) (ix4 b h s d)

/-! ## The key array (output window 3) -/

/-- The key window's block index, decided over the grid: it is (sequence, 0, token block, 0), the sequence and the
    token block the token window's. -/
theorem out_blocks_k : ∀ t : Fin cfg0.N, win0_3.index t (0 : Fin 4) = win0_0.index t (0 : Fin 3)
    ∧ win0_3.index t (1 : Fin 4) = 0 ∧ win0_3.index t (2 : Fin 4) = win0_0.index t (1 : Fin 3)
    ∧ win0_3.index t (3 : Fin 4) = 0 :=
  (by decide +kernel : ∀ t : Fin grid0.N, _)

/-- Every (sequence, token block) pair is some point's. -/
theorem out_onto_k : ∀ (q0 : Fin 4) (q2 : Fin 4), ∃ t : Fin cfg0.N, win0_3.index t = ![q0.val, 0, q2.val, 0] :=
  (by decide +kernel : ∀ (q0 : Fin 4) (q2 : Fin 4), ∃ t : Fin grid0.N, win0_3.index t = ![q0.val, 0, q2.val, 0])

/-- What point `t` writes back is block `t` of `proj 1` of the token and weight arrays as the region finds them. -/
theorem flushed_k (c : Dev nD) (t : Fin cfg0.N) :
    (dat0 V c).flushed 3 t = ((cfg0.win 3).blk t).view.read (Elt Ideal) (proj 1 (V c main_v5) (V c main_v6)) := by
  show (cfg0.win 3).cut (grid0.coords t) ((dat0 V c).after 3 t) = _
  rw [after0_3]
  unfold out0_3
  rw [View.canon_unit_zero zeros4]
  simp only [View.ld_unit_zero (S := S1x512x1024) zeros3, View.ld_unit_zero (S := S3072x1024) zeros2]
  obtain ⟨f0, f1, f2, f3⟩ := out_blocks_k t
  obtain ⟨g0, g1, -, -, -⟩ := in_blocks t
  funext y
  show k0_pay3 (F := Ideal) (iblk0 V c 0 t) (iblk0 V c 1 t) y
    = proj 1 (V c main_v5) (V c main_v6) (((cfg0.win 3).blk t).view.emb y)
  have y0 : (y 0).val < 1 := (y 0).isLt
  have y1 : (y 1).val < 16 := (y 1).isLt
  have y2 : (y 2).val < 512 := (y 2).isLt
  have y3 : (y 3).val < 64 := (y 3).isLt
  refine block_entry 1 1024 rfl (V c main_v5) (V c main_v6) (iblk0 V c 0 t) (iblk0 V c 1 t)
    (k0_pay3 (F := Ideal) (iblk0 V c 0 t) (iblk0 V c 1 t)) (fun h s d r hr => pay3_apply _ _ h s d r hr)
    y (((cfg0.win 3).blk t).view.emb y) (fun e => ?_) (fun r e => weights_apply V c t r e) ?_ ?_
  · refine tokens_apply V c t (y 2) e _ _ ?_ ?_
    · show win0_3.index t (0 : Fin 4) * 1 + 1 * (y 0).val = win0_0.index t (0 : Fin 3); omega
    · show win0_3.index t (2 : Fin 4) * 512 + 1 * (y 2).val = win0_0.index t (1 : Fin 3) * 512 + (y 2).val; omega
  · show win0_3.index t (1 : Fin 4) * 16 + 1 * (y 1).val = (y 1).val; omega
  · show win0_3.index t (3 : Fin 4) * 64 + 1 * (y 3).val = (y 3).val; omega

/-- An index of the array is in point `t`'s block iff each coordinate is in the block's range on its axis. -/
theorem mem_block_k (t : Fin cfg0.N) (i : S4x16x2048x64.Idx) :
    i ∈ ((cfg0.win 3).blk t).view.set ↔ ∀ a : Fin 4, win0_3.index t a * S1x16x512x64.size a ≤ (i a).val
      ∧ (i a).val < win0_3.index t a * S1x16x512x64.size a + S1x16x512x64.size a := by
  show i ∈ ((View.whole main_v8_1).slice (win0_3.rect t)).set ↔ _
  rw [View.set_slice_whole, Rect.mem_set_unit]
  exact Iff.rfl

/-- Every index of the array lies in the block of the point its sequence and its token's block name. -/
theorem cover_k (i : S4x16x2048x64.Idx) :
    ∃ t : Fin cfg0.N, (cfg0.win 3).flush t = true ∧ i ∈ ((cfg0.win 3).blk t).view.set := by
  have i0 : (i 0).val < 4 := (i 0).isLt
  have i1 : (i 1).val < 16 := (i 1).isLt
  have i2 : (i 2).val < 2048 := (i 2).isLt
  have i3 : (i 3).val < 64 := (i 3).isLt
  obtain ⟨t, ht⟩ := out_onto_k ⟨(i 0).val, i0⟩ ⟨(i 2).val / 512, by omega⟩
  have q0 : win0_3.index t (0 : Fin 4) = (i 0).val := congrFun ht 0
  have q1 : win0_3.index t (1 : Fin 4) = 0 := congrFun ht 1
  have q2 : win0_3.index t (2 : Fin 4) = (i 2).val / 512 := congrFun ht 2
  have q3 : win0_3.index t (3 : Fin 4) = 0 := congrFun ht 3
  refine ⟨t, flush0_3 t, ?_⟩
  rw [mem_block_k]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-- The key array after the last point is `proj 1` of the token and weight arrays. -/
theorem array_k (c : Dev nD) : (dat0 V c).arrAt 3 cfg0.N = proj 1 (V c main_v5) (V c main_v6) :=
  (dat0 V c).arrAt_eq_of_cover 3 (proj 1 (V c main_v5) (V c main_v6)) (fun t _ => flushed_k V c t) (cover_k)

theorem final_k (c : Dev nD) (b : Fin 4) (h : Fin 16) (s : Fin 2048) (d : Fin 64) :
    ((dat0 V c).arrAt 3 cfg0.N : S4x16x2048x64.Idx → EReal) (ix4 b h s d)
      = Attn.qkv Attn.rowK (fun b s e => (V c main_v5 : S4x2048x1024.Idx → EReal) (ix3 b s e))
          (fun r e => (V c main_v6 : S3072x1024.Idx → EReal) (ix2 r e)) 1 b h s d :=
  congrFun (array_k V c) (ix4 b h s d)

/-! ## The value array (output window 4) -/

/-- The value window's block index, decided over the grid: it is (sequence, 0, token block, 0), the sequence and the
    token block the token window's. -/
theorem out_blocks_v : ∀ t : Fin cfg0.N, win0_4.index t (0 : Fin 4) = win0_0.index t (0 : Fin 3)
    ∧ win0_4.index t (1 : Fin 4) = 0 ∧ win0_4.index t (2 : Fin 4) = win0_0.index t (1 : Fin 3)
    ∧ win0_4.index t (3 : Fin 4) = 0 :=
  (by decide +kernel : ∀ t : Fin grid0.N, _)

/-- Every (sequence, token block) pair is some point's. -/
theorem out_onto_v : ∀ (q0 : Fin 4) (q2 : Fin 4), ∃ t : Fin cfg0.N, win0_4.index t = ![q0.val, 0, q2.val, 0] :=
  (by decide +kernel : ∀ (q0 : Fin 4) (q2 : Fin 4), ∃ t : Fin grid0.N, win0_4.index t = ![q0.val, 0, q2.val, 0])

/-- What point `t` writes back is block `t` of `proj 2` of the token and weight arrays as the region finds them. -/
theorem flushed_v (c : Dev nD) (t : Fin cfg0.N) :
    (dat0 V c).flushed 4 t = ((cfg0.win 4).blk t).view.read (Elt Ideal) (proj 2 (V c main_v5) (V c main_v6)) := by
  show (cfg0.win 4).cut (grid0.coords t) ((dat0 V c).after 4 t) = _
  rw [after0_4]
  unfold out0_4
  rw [View.canon_unit_zero zeros4]
  simp only [View.ld_unit_zero (S := S1x512x1024) zeros3, View.ld_unit_zero (S := S3072x1024) zeros2]
  obtain ⟨f0, f1, f2, f3⟩ := out_blocks_v t
  obtain ⟨g0, g1, -, -, -⟩ := in_blocks t
  funext y
  show k0_pay4 (F := Ideal) (iblk0 V c 0 t) (iblk0 V c 1 t) y
    = proj 2 (V c main_v5) (V c main_v6) (((cfg0.win 4).blk t).view.emb y)
  have y0 : (y 0).val < 1 := (y 0).isLt
  have y1 : (y 1).val < 16 := (y 1).isLt
  have y2 : (y 2).val < 512 := (y 2).isLt
  have y3 : (y 3).val < 64 := (y 3).isLt
  refine block_entry 2 2048 rfl (V c main_v5) (V c main_v6) (iblk0 V c 0 t) (iblk0 V c 1 t)
    (k0_pay4 (F := Ideal) (iblk0 V c 0 t) (iblk0 V c 1 t)) (fun h s d r hr => pay4_apply _ _ h s d r hr)
    y (((cfg0.win 4).blk t).view.emb y) (fun e => ?_) (fun r e => weights_apply V c t r e) ?_ ?_
  · refine tokens_apply V c t (y 2) e _ _ ?_ ?_
    · show win0_4.index t (0 : Fin 4) * 1 + 1 * (y 0).val = win0_0.index t (0 : Fin 3); omega
    · show win0_4.index t (2 : Fin 4) * 512 + 1 * (y 2).val = win0_0.index t (1 : Fin 3) * 512 + (y 2).val; omega
  · show win0_4.index t (1 : Fin 4) * 16 + 1 * (y 1).val = (y 1).val; omega
  · show win0_4.index t (3 : Fin 4) * 64 + 1 * (y 3).val = (y 3).val; omega

/-- An index of the array is in point `t`'s block iff each coordinate is in the block's range on its axis. -/
theorem mem_block_v (t : Fin cfg0.N) (i : S4x16x2048x64.Idx) :
    i ∈ ((cfg0.win 4).blk t).view.set ↔ ∀ a : Fin 4, win0_4.index t a * S1x16x512x64.size a ≤ (i a).val
      ∧ (i a).val < win0_4.index t a * S1x16x512x64.size a + S1x16x512x64.size a := by
  show i ∈ ((View.whole main_v8_2).slice (win0_4.rect t)).set ↔ _
  rw [View.set_slice_whole, Rect.mem_set_unit]
  exact Iff.rfl

/-- Every index of the array lies in the block of the point its sequence and its token's block name. -/
theorem cover_v (i : S4x16x2048x64.Idx) :
    ∃ t : Fin cfg0.N, (cfg0.win 4).flush t = true ∧ i ∈ ((cfg0.win 4).blk t).view.set := by
  have i0 : (i 0).val < 4 := (i 0).isLt
  have i1 : (i 1).val < 16 := (i 1).isLt
  have i2 : (i 2).val < 2048 := (i 2).isLt
  have i3 : (i 3).val < 64 := (i 3).isLt
  obtain ⟨t, ht⟩ := out_onto_v ⟨(i 0).val, i0⟩ ⟨(i 2).val / 512, by omega⟩
  have q0 : win0_4.index t (0 : Fin 4) = (i 0).val := congrFun ht 0
  have q1 : win0_4.index t (1 : Fin 4) = 0 := congrFun ht 1
  have q2 : win0_4.index t (2 : Fin 4) = (i 2).val / 512 := congrFun ht 2
  have q3 : win0_4.index t (3 : Fin 4) = 0 := congrFun ht 3
  refine ⟨t, flush0_4 t, ?_⟩
  rw [mem_block_v]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- The value array after the last point is `proj 2` of the token and weight arrays. -/
theorem array_v (c : Dev nD) : (dat0 V c).arrAt 4 cfg0.N = proj 2 (V c main_v5) (V c main_v6) :=
  (dat0 V c).arrAt_eq_of_cover 4 (proj 2 (V c main_v5) (V c main_v6)) (fun t _ => flushed_v V c t) (cover_v)

theorem final_v (c : Dev nD) (b : Fin 4) (h : Fin 16) (s : Fin 2048) (d : Fin 64) :
    ((dat0 V c).arrAt 4 cfg0.N : S4x16x2048x64.Idx → EReal) (ix4 b h s d)
      = Attn.qkv Attn.rowK (fun b s e => (V c main_v5 : S4x2048x1024.Idx → EReal) (ix3 b s e))
          (fun r e => (V c main_v6 : S3072x1024.Idx → EReal) (ix2 r e)) 2 b h s d :=
  congrFun (array_v V c) (ix4 b h s d)

end Cert.AttnK.Region0

end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.Region1.lean ====
/-
  The second region, read as values: after its last grid point the output array holds, at (b, h, i, d), lane d of
  the softmax-weighted sum of head (b, h)'s value rows, the weights the softmax of query i's scores against all
  2048 keys, each score the sum over the 64 lanes of (query lane · 1/8) · key lane.
-/
import proofs.«410984_j6485400617573_3_alg».proof.Proof.Gen.KernelIdeal.Frame
import proofs.«410984_j6485400617573_3_alg».proof.Proof.Spec
import proofs.«410984_j6485400617573_3_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.AttnK.Region1

open Idealize.ShloMosaic Idealize.ShloMosaic.TcCoe Idealize.SL.Sem Idealize.ShloMosaic.Pipeline Idealize.ShloMosaic.ValueIdx
open Cert.KernelIdeal Cert.KernelIdeal.Gen

/-! ## Layout operations of the body read at an index -/

section Layout
variable {α : Type}

/-- A [1, 1, n, m] block viewed as [n, m] reads entry (0, 0, r, l) at (r, l): both sit at row-major position r·m + l. -/
theorem cast_block_rows {n m : Nat} (x : (⟨4, ![1, 1, n, m]⟩ : Shape).Idx → α)
    (h : (⟨4, ![1, 1, n, m]⟩ : Shape).ShapeCasts ⟨2, ![n, m]⟩) (r : Fin n) (l : Fin m) :
    shapeCast ⟨2, ![n, m]⟩ x h (ix2 r l) = x (ix4 0 0 r l) := by
  refine shapeCast_apply x h (ix2 r l) (ix4 0 0 r l) ?_
  rw [Shape.rowMajor_val_four, Shape.rowMajor_val_two]
  show (((0 : Fin 1).val * 1 + (0 : Fin 1).val) * n + r.val) * m + l.val = r.val * m + l.val
  simp

/-- An [n, m] result stored as a [1, 1, n, m] block reads entry (r, l) at (0, 0, r, l). -/
theorem cast_rows_block {n m : Nat} (y : (⟨2, ![n, m]⟩ : Shape).Idx → α)
    (h : (⟨2, ![n, m]⟩ : Shape).ShapeCasts ⟨4, ![1, 1, n, m]⟩) (a0 a1 : Fin 1) (r : Fin n) (l : Fin m) :
    shapeCast ⟨4, ![1, 1, n, m]⟩ y h (ix4 a0 a1 r l) = y (ix2 r l) := by
  refine shapeCast_apply y h (ix4 a0 a1 r l) (ix2 r l) ?_
  rw [Shape.rowMajor_val_four, Shape.rowMajor_val_two]
  show r.val * m + l.val = ((a0.val * 1 + a1.val) * n + r.val) * m + l.val
  have h0 : a0.val = 0 := by have := a0.isLt; omega
  have h1 : a1.val = 0 := by have := a1.isLt; omega
  rw [h0, h1]; simp

end Layout

/-! ## The two row reductions -/

/-- The maximum over the keys of a [1024, 2048] score tile, at row r: the fold of max from −∞ over that row. -/
theorem row_max_apply (src : FVec Ideal S1024x2048 .f32) (h : S1024x2048.Reduces [1] S1024) (hφ : FKind.Formats .f32)
    (hacc : (0xFF800000#32 : BitVec 32) = FKind.maximumf.neutral .f32 hφ) (r : Fin 1024) :
    multiReduction .maximumf [1] S1024 src 0xFF800000#32 h hφ hacc (ix1 r) = Attn.rowMax (fun j => src (ix2 r j)) := by
  refine (Ideal.multiReduction_maximumf_single src _ h hφ hacc (ix1 r)).trans ?_
  have e : (fun k : Fin 2048 => src (h.lift (ix1 r) k)) = fun j : Fin 2048 => src (ix2 r j) :=
    funext fun k => congrArg src (funext fun a => Fin.ext (by match a with | ⟨0, _⟩ => rfl | ⟨1, _⟩ => rfl))
  exact congrArg (fun f : Fin 2048 → EReal => (Finset.univ : Finset (Fin 2048)).fold max Attn.negInf f) e

/-- The sum over the keys of a [1024, 2048] tile, at row r. -/
theorem row_sum_apply (src : FVec Ideal S1024x2048 .f32) (h : S1024x2048.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ j : Fin 2048, src (ix2 r j) := by
  refine (Ideal.multiReduction_add_single src _ h hφ hacc (ix1 r)).trans ?_
  exact Finset.sum_congr rfl fun k _ => congrArg src (funext fun a => Fin.ext (by match a with | ⟨0, _⟩ => rfl | ⟨1, _⟩ => rfl))

/-! ## The two products -/

theorem qk_lhs_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem qk_lhs_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem qk_rhs_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem qk_rhs_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- The score tile: entry (r, j) of the product of the 1024 scaled query rows with the 2048 key rows, contracting
    the 64 lanes of both, is the sum over the lanes of query r's lane times key j's lane. -/
theorem qk_apply (A : FVec Ideal S1024x64 .bf16) (B : FVec Ideal S2048x64 .bf16) (r : Fin 1024) (j : Fin 2048) :
    matmul dot_S1024x64_S2048x64_S1024x2048_1_1_0_0_n_n none A B (constant (F := Ideal) S1024x2048 .f32 0x00000000#32) (ix2 r j)
      = ∑ l : Fin 64, A (ix2 r l) * B (ix2 j l) := by
  simp only [matmul]
  rw [Ideal.matmul_constant_zero_apply, ← Equiv.sum_comp (ValueIdx.contrEquiv1 dot_S1024x64_S2048x64_S1024x2048_1_1_0_0_n_n 64 rfl rfl).symm]
  refine Finset.sum_congr rfl fun k _ => ?_
  have hk := ValueIdx.contrEquiv1_symm_val dot_S1024x64_S2048x64_S1024x2048_1_1_0_0_n_n 64 rfl rfl k
  have el : dot_S1024x64_S2048x64_S1024x2048_1_1_0_0_n_n.lhsIdx (ix2 r j) ((ValueIdx.contrEquiv1 dot_S1024x64_S2048x64_S1024x2048_1_1_0_0_n_n 64 rfl rfl).symm k) = ix2 r k := funext fun a => Fin.ext (by
    match a with
    | ⟨0, _⟩ => exact qk_lhs_0 _ _
    | ⟨1, _⟩ => exact (qk_lhs_1 _ _).trans hk)
  have er : dot_S1024x64_S2048x64_S1024x2048_1_1_0_0_n_n.rhsIdx (ix2 r j) ((ValueIdx.contrEquiv1 dot_S1024x64_S2048x64_S1024x2048_1_1_0_0_n_n 64 rfl rfl).symm k) = ix2 j k := funext fun a => Fin.ext (by
    match a with
    | ⟨0, _⟩ => exact qk_rhs_0 _ _
    | ⟨1, _⟩ => exact (qk_rhs_1 _ _).trans hk)
  rw [el, er]

theorem pv_lhs_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem pv_lhs_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem pv_rhs_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem pv_rhs_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The output tile: entry (r, d) of the product of the 1024 weight rows with the 2048 value rows, contracting the
    keys, is the sum over the keys of row r's weight for key j times lane d of value row j. -/
theorem pv_apply (P : FVec Ideal S1024x2048 .bf16) (B : FVec Ideal S2048x64 .bf16) (r : Fin 1024) (d : Fin 64) :
    matmul dot_S1024x2048_S2048x64_S1024x64_1_0_0_1_n_n none P B (constant (F := Ideal) S1024x64 .f32 0x00000000#32) (ix2 r d)
      = ∑ j : Fin 2048, P (ix2 r j) * B (ix2 j d) := by
  simp only [matmul]
  rw [Ideal.matmul_constant_zero_apply, ← Equiv.sum_comp (ValueIdx.contrEquiv1 dot_S1024x2048_S2048x64_S1024x64_1_0_0_1_n_n 2048 rfl rfl).symm]
  refine Finset.sum_congr rfl fun k _ => ?_
  have hk := ValueIdx.contrEquiv1_symm_val dot_S1024x2048_S2048x64_S1024x64_1_0_0_1_n_n 2048 rfl rfl k
  have el : dot_S1024x2048_S2048x64_S1024x64_1_0_0_1_n_n.lhsIdx (ix2 r d) ((ValueIdx.contrEquiv1 dot_S1024x2048_S2048x64_S1024x64_1_0_0_1_n_n 2048 rfl rfl).symm k) = ix2 r k := funext fun a => Fin.ext (by
    match a with
    | ⟨0, _⟩ => exact pv_lhs_0 _ _
    | ⟨1, _⟩ => exact (pv_lhs_1 _ _).trans hk)
  have er : dot_S1024x2048_S2048x64_S1024x64_1_0_0_1_n_n.rhsIdx (ix2 r d) ((ValueIdx.contrEquiv1 dot_S1024x2048_S2048x64_S1024x64_1_0_0_1_n_n 2048 rfl rfl).symm k) = ix2 k d := funext fun a => Fin.ext (by
    match a with
    | ⟨0, _⟩ => exact (pv_rhs_0 _ _).trans hk
    | ⟨1, _⟩ => exact pv_rhs_1 _ _)
  rw [el, er]

/-! ## A row's softmax weights -/

/-- The exponentials of a score tile less its row maxima: the tile, minus the column of row maxima broadcast along
    the keys, exponentiated entry by entry. -/
abbrev expRows (S : FVec Ideal S1024x2048 .f32) (hr : S1024x2048.Reduces [1] S1024) (hφ : FKind.Formats .f32)
    (hmax : (0xFF800000#32 : BitVec 32) = FKind.maximumf.neutral .f32 hφ) (hc : S1024.ShapeCasts S1024x1)
    (hb : S1024x1.Broadcasts S1024x2048) : FVec Ideal S1024x2048 .f32 :=
  exp (subf S (broadcastTo S1024x2048 (shapeCast S1024x1 (multiReduction .maximumf [1] S1024 S 0xFF800000#32 hr hφ hmax) hc) hb))

/-- Entry (r, j) of it is exp (score − the maximum of row r's scores). -/
theorem expRows_apply (S : FVec Ideal S1024x2048 .f32) (hr : S1024x2048.Reduces [1] S1024) (hφ : FKind.Formats .f32)
    (hmax : (0xFF800000#32 : BitVec 32) = FKind.maximumf.neutral .f32 hφ) (hc : S1024.ShapeCasts S1024x1)
    (hb : S1024x1.Broadcasts S1024x2048) (r : Fin 1024) (j : Fin 2048) :
    expRows S hr hφ hmax hc hb (ix2 r j) = Ideal.exp (S (ix2 r j) - Attn.rowMax (fun j' => S (ix2 r j'))) := by
  show Ideal.exp (S (ix2 r j) - broadcastTo S1024x2048 (shapeCast S1024x1 (multiReduction .maximumf [1] S1024 S 0xFF800000#32 hr hφ hmax) hc) hb (ix2 r j)) = _
  rw [Cert.LibColumn.broadcastTo_a1_ab_apply, Cert.LibColumn.shapeCast_a_a1_apply, row_max_apply]

/-- The exponentials divided by the column of their row sums broadcast along the keys: entry (r, j) is the softmax
    weight of key j in row r's scores. -/
theorem softmax_rows_apply (S : FVec Ideal S1024x2048 .f32) (hr : S1024x2048.Reduces [1] S1024) (hφ : FKind.Formats .f32)
    (hmax : (0xFF800000#32 : BitVec 32) = FKind.maximumf.neutral .f32 hφ)
    (hadd : (0x00000000#32 : BitVec 32) = FKind.add.neutral .f32 hφ) (hc : S1024.ShapeCasts S1024x1)
    (hb : S1024x1.Broadcasts S1024x2048) (r : Fin 1024) (j : Fin 2048) :
    divf (expRows S hr hφ hmax hc hb)
        (broadcastTo S1024x2048 (shapeCast S1024x1 (multiReduction .add [1] S1024 (expRows S hr hφ hmax hc hb) 0x00000000#32 hr hφ hadd) hc) hb) (ix2 r j)
      = Attn.softmax (fun j' => S (ix2 r j')) j := by
  rw [divf_apply, Cert.LibColumn.broadcastTo_a1_ab_apply, Cert.LibColumn.shapeCast_a_a1_apply, row_sum_apply]
  exact congrArg₂ Ideal.div (expRows_apply S hr hφ hmax hc hb r j)
    (Finset.sum_congr rfl fun j' _ => expRows_apply S hr hφ hmax hc hb r j')

/-! ## The body's stored value at an index -/

/-- Entry (0, 0, r, d) of what the body stores, from the query tile x0 and the key and value blocks x1, x2 it loaded:
    lane d of the softmax-weighted sum of the value rows, the weights the softmax of the scores of query row r — each
    the sum over the lanes of (query lane · 1/8) · key lane — against the 2048 key rows. The conversions between the
    two float formats are the identity on the extended reals. -/
theorem pay_apply (x0 : Vec Ideal S1x1x1024x64 .bf16) (x1 x2 : Vec Ideal S1x1x2048x64 .bf16) (a0 a1 : Fin 1)
    (r : Fin 1024) (d : Fin 64) :
    k1_pay1 (F := Ideal) x0 x1 x2 (ix4 a0 a1 r d)
      = Attn.attend (Attn.scoreK (fun l => x0 (ix4 0 0 r l)) (fun j l => x1 (ix4 0 0 j l))) (fun j l => x2 (ix4 0 0 j l)) d := by
  unfold k1_pay1 Attn.attend
  refine (cast_rows_block _ _ a0 a1 r d).trans ?_
  refine (truncf_apply (ψ := .bf16) (φ := .f32) _ _ _).trans ?_
  refine (pv_apply _ _ r d).trans ?_
  refine Finset.sum_congr rfl fun j _ => ?_
  refine congrArg₂ (· * ·) ?_ (cast_block_rows _ _ j d)
  refine (truncf_apply (ψ := .bf16) (φ := .f32) _ _ _).trans ?_
  refine (softmax_rows_apply _ _ _ _ _ _ _ r j).trans ?_
  refine congrArg (fun s => Attn.softmax s j) (funext fun j' => ?_)
  refine (qk_apply _ _ r j').trans ?_
  unfold Attn.scoreK
  refine Finset.sum_congr rfl fun l _ => ?_
  refine congrArg₂ (· * ·) ?_ (cast_block_rows _ _ j' l)
  refine (truncf_apply (ψ := .bf16) (φ := .f32) _ _ _).trans ?_
  refine (mulf_apply (φ := .f32) _ _ _).trans ?_
  exact congrArg₂ (· * ·) ((extf_apply (φ := .bf16) (ψ := .f32) _ _ _).trans (cast_block_rows _ _ r l)) rfl

/-! ## From blocks to the array -/

theorem zero_offsets : (![0, 0, 0, 0] : Fin 4 → Nat) = fun _ => 0 := funext fun a => by fin_cases a <;> rfl

/-- The output array as one function of the three input arrays: entry (b, h, i, d) is head (b, h)'s attention output
    for query i, lane d. -/
abbrev outArr (Qa Ka Va : S4x16x2048x64.Idx → EReal) : S4x16x2048x64.Idx → EReal := fun i =>
  Attn.attn Attn.scoreK (fun b h s d => Qa (ix4 b h s d)) (fun b h s d => Ka (ix4 b h s d))
    (fun b h s d => Va (ix4 b h s d)) (i 0) (i 1) (i 2) (i 3)

/-- A block's stored entry from blocks that are restrictions of the arrays: if the query tile's row r is query s of
    head (b, h) and the key and value blocks are head (b, h)'s 2048 rows, entry (0, 0, r, d) of the stored value is
    entry (b, h, s, d) of the output function. -/
theorem pay_point (Qa Ka Va : S4x16x2048x64.Idx → EReal) (x0 : Vec Ideal S1x1x1024x64 .bf16)
    (x1 x2 : Vec Ideal S1x1x2048x64 .bf16) (b : Fin 4) (h : Fin 16) (s : Fin 2048) (a0 a1 : Fin 1) (r : Fin 1024) (d : Fin 64)
    (h0 : ∀ l : Fin 64, x0 (ix4 0 0 r l) = Qa (ix4 b h s l))
    (h1 : ∀ (j : Fin 2048) (l : Fin 64), x1 (ix4 0 0 j l) = Ka (ix4 b h j l))
    (h2 : ∀ (j : Fin 2048) (l : Fin 64), x2 (ix4 0 0 j l) = Va (ix4 b h j l)) :
    k1_pay1 (F := Ideal) x0 x1 x2 (ix4 a0 a1 r d) = outArr Qa Ka Va (ix4 b h s d) := by
  rw [pay_apply, funext h0, funext fun j => funext (h1 j), funext fun j => funext (h2 j)]
  rfl

/-- The windows' index maps over the grid: at every point the query and output windows sit at the same block, the key
    and value windows at the same batch and head with block index 0 along the rows, and every window at lane block 0;
    the output's block indices stay in their ranges. -/
theorem idx_facts : ∀ t : Fin cfg1.N,
    win1_0.index t (0 : Fin 4) = win1_3.index t (0 : Fin 4) ∧ win1_0.index t (1 : Fin 4) = win1_3.index t (1 : Fin 4)
    ∧ win1_0.index t (2 : Fin 4) = win1_3.index t (2 : Fin 4) ∧ win1_0.index t (3 : Fin 4) = 0
    ∧ win1_1.index t (0 : Fin 4) = win1_3.index t (0 : Fin 4) ∧ win1_1.index t (1 : Fin 4) = win1_3.index t (1 : Fin 4)
    ∧ win1_1.index t (2 : Fin 4) = 0 ∧ win1_1.index t (3 : Fin 4) = 0
    ∧ win1_2.index t (0 : Fin 4) = win1_3.index t (0 : Fin 4) ∧ win1_2.index t (1 : Fin 4) = win1_3.index t (1 : Fin 4)
    ∧ win1_2.index t (2 : Fin 4) = 0 ∧ win1_2.index t (3 : Fin 4) = 0
    ∧ win1_3.index t (0 : Fin 4) < 4 ∧ win1_3.index t (1 : Fin 4) < 16 ∧ win1_3.index t (2 : Fin 4) < 2
    ∧ win1_3.index t (3 : Fin 4) = 0 :=
  (by decide +kernel : ∀ t : Fin grid1.N, _)

/-- Every (batch, head, query tile) is some point's output block. -/
theorem idx_onto : ∀ (q0 : Fin 4) (q1 : Fin 16) (q2 : Fin 2), ∃ t : Fin cfg1.N, win1_3.index t = ![q0.val, q1.val, q2.val, 0] :=
  (by decide +kernel : ∀ (q0 : Fin 4) (q1 : Fin 16) (q2 : Fin 2), ∃ t : Fin grid1.N, win1_3.index t = ![q0.val, q1.val, q2.val, 0])

-- the TensorCore's buffer contents when the region is entered: every statement here holds for any
variable (V : (c : Dev nD) → (b : Ref sig .tc) → Buf (Elt Ideal) ((c : Thread nD τ).loc b))

/-- What point t writes back is block t of the output function of the arrays as the region finds them: row r of the
    point's query tile is query (tile index)·1024 + r of the point's head, and its key and value blocks are that
    head's 2048 rows. -/
theorem flushed_eq (c : Dev nD) (t : Fin cfg1.N) :
    (dat1 V c).flushed 3 t
      = ((cfg1.win 3).blk t).view.read (Elt Ideal) (outArr (V c main_v8_0) (V c main_v8_1) (V c main_v8_2)) := by
  show (cfg1.win 3).cut (grid1.coords t) ((dat1 V c).after 3 t) = _
  rw [after1_3]
  unfold out1_3
  rw [View.canon_unit_zero zero_offsets]
  simp only [View.ld_unit_zero (S := S1x1x1024x64) zero_offsets, View.ld_unit_zero (S := S1x1x2048x64) zero_offsets]
  obtain ⟨e00, e01, e02, e03, e10, e11, e12, e13, e20, e21, e22, e23, b0, b1, b2, b3⟩ := idx_facts t
  funext y
  obtain ⟨a0, a1, r, d, rfl⟩ : ∃ (a0 a1 : Fin 1) (r : Fin 1024) (d : Fin 64), y = ix4 a0 a1 r d :=
    ⟨y 0, y 1, y 2, y 3, eq_ix4 y⟩
  have hr : r.val < 1024 := r.isLt
  have hs : win1_3.index t (2 : Fin 4) * 1024 + r.val < 2048 := by omega
  have hemb : ((cfg1.win 3).blk t).view.emb (ix4 a0 a1 r d)
      = ix4 (⟨win1_3.index t (0 : Fin 4), b0⟩ : Fin 4) (⟨win1_3.index t (1 : Fin 4), b1⟩ : Fin 16)
          (⟨win1_3.index t (2 : Fin 4) * 1024 + r.val, hs⟩ : Fin 2048) d := by
    funext a; apply Fin.ext
    match a with
    | ⟨0, _⟩ => show win1_3.index t (0 : Fin 4) * 1 + 1 * a0.val = win1_3.index t (0 : Fin 4); have := a0.isLt; omega
    | ⟨1, _⟩ => show win1_3.index t (1 : Fin 4) * 1 + 1 * a1.val = win1_3.index t (1 : Fin 4); have := a1.isLt; omega
    | ⟨2, _⟩ => show win1_3.index t (2 : Fin 4) * 1024 + 1 * r.val = win1_3.index t (2 : Fin 4) * 1024 + r.val; omega
    | ⟨3, _⟩ => show win1_3.index t (3 : Fin 4) * 64 + 1 * d.val = d.val; omega
  show k1_pay1 (F := Ideal) (iblk1 V c 0 t) (iblk1 V c 1 t) (iblk1 V c 2 t) (ix4 a0 a1 r d)
    = outArr (V c main_v8_0) (V c main_v8_1) (V c main_v8_2) (((cfg1.win 3).blk t).view.emb (ix4 a0 a1 r d))
  refine (pay_point (V c main_v8_0) (V c main_v8_1) (V c main_v8_2) (iblk1 V c 0 t) (iblk1 V c 1 t) (iblk1 V c 2 t)
    ⟨win1_3.index t (0 : Fin 4), b0⟩ ⟨win1_3.index t (1 : Fin 4), b1⟩ ⟨win1_3.index t (2 : Fin 4) * 1024 + r.val, hs⟩
    a0 a1 r d ?_ ?_ ?_).trans (congrArg (outArr (V c main_v8_0) (V c main_v8_1) (V c main_v8_2)) hemb.symm)
  · intro l
    show V c main_v8_0 (((cfg1.win 0).blk t).view.emb (ix4 0 0 r l)) = V c main_v8_0 _
    refine congrArg (V c main_v8_0) (funext fun a => Fin.ext ?_)
    match a with
    | ⟨0, _⟩ => show win1_0.index t (0 : Fin 4) * 1 + 1 * 0 = win1_3.index t (0 : Fin 4); omega
    | ⟨1, _⟩ => show win1_0.index t (1 : Fin 4) * 1 + 1 * 0 = win1_3.index t (1 : Fin 4); omega
    | ⟨2, _⟩ => show win1_0.index t (2 : Fin 4) * 1024 + 1 * r.val = win1_3.index t (2 : Fin 4) * 1024 + r.val; omega
    | ⟨3, _⟩ => show win1_0.index t (3 : Fin 4) * 64 + 1 * l.val = l.val; omega
  · intro j l
    show V c main_v8_1 (((cfg1.win 1).blk t).view.emb (ix4 0 0 j l)) = V c main_v8_1 _
    refine congrArg (V c main_v8_1) (funext fun a => Fin.ext ?_)
    match a with
    | ⟨0, _⟩ => show win1_1.index t (0 : Fin 4) * 1 + 1 * 0 = win1_3.index t (0 : Fin 4); omega
    | ⟨1, _⟩ => show win1_1.index t (1 : Fin 4) * 1 + 1 * 0 = win1_3.index t (1 : Fin 4); omega
    | ⟨2, _⟩ => show win1_1.index t (2 : Fin 4) * 2048 + 1 * j.val = j.val; omega
    | ⟨3, _⟩ => show win1_1.index t (3 : Fin 4) * 64 + 1 * l.val = l.val; omega
  · intro j l
    show V c main_v8_2 (((cfg1.win 2).blk t).view.emb (ix4 0 0 j l)) = V c main_v8_2 _
    refine congrArg (V c main_v8_2) (funext fun a => Fin.ext ?_)
    match a with
    | ⟨0, _⟩ => show win1_2.index t (0 : Fin 4) * 1 + 1 * 0 = win1_3.index t (0 : Fin 4); omega
    | ⟨1, _⟩ => show win1_2.index t (1 : Fin 4) * 1 + 1 * 0 = win1_3.index t (1 : Fin 4); omega
    | ⟨2, _⟩ => show win1_2.index t (2 : Fin 4) * 2048 + 1 * j.val = j.val; omega
    | ⟨3, _⟩ => show win1_2.index t (3 : Fin 4) * 64 + 1 * l.val = l.val; omega

/-- An index of the output array is in point t's block iff each coordinate is in the block's range on its axis. -/
theorem mem_blk (t : Fin cfg1.N) (i : S4x16x2048x64.Idx) :
    i ∈ ((cfg1.win 3).blk t).view.set ↔ ∀ a : Fin 4, win1_3.index t a * S1x1x1024x64.size a ≤ (i a).val
      ∧ (i a).val < win1_3.index t a * S1x1x1024x64.size a + S1x1x1024x64.size a := by
  show i ∈ ((View.whole main_v9).slice (win1_3.rect t)).set ↔ _
  rw [View.set_slice_whole, Rect.mem_set_unit]
  exact Iff.rfl

/-- Every index (b, h, i, d) of the output array lies in the block of the point at batch b, head h, tile i / 1024. -/
theorem cover (i : S4x16x2048x64.Idx) :
    ∃ t : Fin cfg1.N, (cfg1.win 3).flush t = true ∧ i ∈ ((cfg1.win 3).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 1024, by omega⟩
  have q0 : win1_3.index t (0 : Fin 4) = (i 0).val := congrFun ht 0
  have q1 : win1_3.index t (1 : Fin 4) = (i 1).val := congrFun ht 1
  have q2 : win1_3.index t (2 : Fin 4) = (i 2).val / 1024 := congrFun ht 2
  have q3 : win1_3.index t (3 : Fin 4) = 0 := congrFun ht 3
  refine ⟨t, flush1_3 t, ?_⟩
  rw [mem_blk]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 1024 ≤ (i 2).val ∧ (i 2).val < win1_3.index t (2 : Fin 4) * 1024 + 1024; omega
  | ⟨3, _⟩ => show win1_3.index t (3 : Fin 4) * 64 ≤ (i 3).val ∧ (i 3).val < win1_3.index t (3 : Fin 4) * 64 + 64; omega

theorem final (c : Dev nD) (b : Fin 4) (h : Fin 16) (i : Fin 2048) (d : Fin 64) :
    ((dat1 V c).arrAt 3 cfg1.N : S4x16x2048x64.Idx → EReal) (ix4 b h i d)
      = Attn.attn Attn.scoreK (fun b h s d => (V c main_v8_0 : S4x16x2048x64.Idx → EReal) (ix4 b h s d))
          (fun b h s d => (V c main_v8_1 : S4x16x2048x64.Idx → EReal) (ix4 b h s d))
          (fun b h s d => (V c main_v8_2 : S4x16x2048x64.Idx → EReal) (ix4 b h s d)) b h i d := by
  exact congrFun ((dat1 V c).arrAt_eq_of_cover 3 (outArr (V c main_v8_0) (V c main_v8_1) (V c main_v8_2))
    (fun t _ => flushed_eq V c t) cover) (ix4 b h i d)

end Cert.AttnK.Region1

end
-- ==== Proof.Region2.lean ====
/-
  The third region, read as values: after its last grid point the output array holds, at (b, s, f), the dot
  product of token (b, s)'s heads laid side by side — channel e from head e / 64, lane e % 64 — with row f of the
  weight array the region was given.
-/
import proofs.«410984_j6485400617573_3_alg».proof.Proof.Gen.KernelIdeal.Frame
import proofs.«410984_j6485400617573_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.AttnK.Region2

open Idealize.ShloMosaic Idealize.ShloMosaic.TcCoe Idealize.SL.Sem Idealize.ShloMosaic.Pipeline Idealize.ShloMosaic.ValueIdx
open Cert.KernelIdeal Cert.KernelIdeal.Gen

-- the TensorCore's buffer contents when the region is entered: every statement here holds for any
variable (V : (c : Dev nD) → (b : Ref sig .tc) → Buf (Elt Ideal) ((c : Thread nD τ).loc b))

/-! ## The output projection's contraction, axis by axis -/

theorem lhs_proj_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_proj_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_proj_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_proj_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The matmul of the region's body at (r, f): the sum over the 1024 channels of the left operand's row r against the
    right operand's row f. -/
theorem proj_matmul_apply (a : FVec Ideal S512x1024 .bf16) (w : FVec Ideal S1024x1024 .bf16) (r : Fin 512) (f : Fin 1024) :
    matmul dot_S512x1024_S1024x1024_S512x1024_1_1_0_0_n_n none a w (constant (F := Ideal) S512x1024 .f32 0x00000000#32) (ix2 r f)
      = ∑ e : Fin 1024, a (ix2 r e) * w (ix2 f e) := by
  refine (Ideal.matmul_constant_zero_apply dot_S512x1024_S1024x1024_S512x1024_1_1_0_0_n_n none a w (ix2 r f)).trans ?_
  rw [← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 r f) ((ValueIdx.contrEquiv1 dot_S512x1024_S1024x1024_S512x1024_1_1_0_0_n_n 1024 rfl rfl).symm k) = ix2 r k := funext fun a => Fin.ext (by
    match a with
    | ⟨0, _⟩ => exact lhs_proj_0 _ _
    | ⟨1, _⟩ => exact (lhs_proj_1 _ _).trans hk)
  have er : dot_S512x1024_S1024x1024_S512x1024_1_1_0_0_n_n.rhsIdx (ix2 r f) ((ValueIdx.contrEquiv1 dot_S512x1024_S1024x1024_S512x1024_1_1_0_0_n_n 1024 rfl rfl).symm k) = ix2 f k := funext fun a => Fin.ext (by
    match a with
    | ⟨0, _⟩ => exact rhs_proj_0 _ _
    | ⟨1, _⟩ => exact (rhs_proj_1 _ _).trans hk)
  rw [el, er]

/-- The left operand at (r, e): the block's heads laid side by side, channel e from head e / 64, lane e % 64. -/
theorem merged_apply (x0 : FVec Ideal S1x16x512x64 .bf16) (r : Fin 512) (e : Fin 1024) :
    shapeCast S512x1024 (transpose S512x16x64 [1, 0, 2] (shapeCast S16x512x64 x0 shapeCasts_S1x16x512x64_S16x512x64) transposes_S16x512x64_p1_0_2_S512x16x64) shapeCasts_S512x16x64_S512x1024 (ix2 r e)
      = x0 (ix4 0 (Attn.headOf e) r (Attn.laneOf e)) := by
  have hr : r.val < 512 := r.isLt
  have he : e.val < 1024 := e.isLt
  refine (shapeCast_apply _ _ (ix2 r e) (ix3 r (Attn.headOf e) (Attn.laneOf e))
    (by rw [Shape.rowMajor_val_two, Shape.rowMajor_val_three]
        show (r.val * 16 + e.val / 64) * 64 + e.val % 64 = r.val * 1024 + e.val
        omega)).trans ?_
  refine (transpose_apply _ _ _ _ (ix3 (Attn.headOf e) r (Attn.laneOf e))
    (fun b => match b with | ⟨0, _⟩ => rfl | ⟨1, _⟩ => rfl | ⟨2, _⟩ => rfl)).trans ?_
  exact shapeCast_apply _ _ _ (ix4 0 (Attn.headOf e) r (Attn.laneOf e))
    (by rw [Shape.rowMajor_val_four, Shape.rowMajor_val_three]
        show ((0 * 16 + e.val / 64) * 512 + r.val) * 64 + e.val % 64 = (e.val / 64 * 512 + r.val) * 64 + e.val % 64
        omega)

/-- The body's stored value at (0, r, f). -/
theorem pay_apply (x0 : FVec Ideal S1x16x512x64 .bf16) (x1 : FVec Ideal S1024x1024 .bf16) (r : Fin 512) (f : Fin 1024) :
    k2_pay1 (F := Ideal) x0 x1 (ix3 0 r f)
      = ∑ e : Fin 1024, x0 (ix4 0 (Attn.headOf e) r (Attn.laneOf e)) * x1 (ix2 f e) := by
  have hr : r.val < 512 := r.isLt
  have hf : f.val < 1024 := f.isLt
  unfold k2_pay1
  refine (shapeCast_apply _ _ (ix3 0 r f) (ix2 r f)
    (by rw [Shape.rowMajor_val_two, Shape.rowMajor_val_three]
        show r.val * 1024 + f.val = (0 * 512 + r.val) * 1024 + f.val
        omega)).trans ?_
  refine (proj_matmul_apply _ _ r f).trans ?_
  refine Finset.sum_congr rfl fun e _ => ?_
  rw [merged_apply, shapeCast_self]

/-! ## From the blocks to the array -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- What the output array ends holding, as one function of the attention array and the weight array: at (b, s, f) the
    output projection of token (b, s)'s merged heads against weight row f. -/
abbrev proj (A : S4x16x2048x64.Idx → EReal) (Wo : S1024x1024.Idx → EReal) : S4x2048x1024.Idx → EReal := fun i =>
  Attn.outP (fun b h s d => A (ix4 b h s d)) (fun f e => Wo (ix2 f e))
    ⟨(i 0).val, (i 0).isLt⟩ ⟨(i 1).val, (i 1).isLt⟩ ⟨(i 2).val, (i 2).isLt⟩

/-- The body's stored value at a block index j is the projection at an array index i, once the two loaded blocks are
    known to hold the attention array's rows for i's token and the weight array's row for i's feature. -/
theorem block_value (A : S4x16x2048x64.Idx → EReal) (Wo : S1024x1024.Idx → EReal)
    (x0 : FVec Ideal S1x16x512x64 .bf16) (x1 : FVec Ideal S1024x1024 .bf16) (j : S1x512x1024.Idx) (i : S4x2048x1024.Idx)
    (h0 : ∀ (h : Fin 16) (d : Fin 64), x0 (ix4 0 h ⟨(j 1).val, (j 1).isLt⟩ d) = A (ix4 ⟨(i 0).val, (i 0).isLt⟩ h ⟨(i 1).val, (i 1).isLt⟩ d))
    (h1 : ∀ e : Fin 1024, x1 (ix2 ⟨(j 2).val, (j 2).isLt⟩ e) = Wo (ix2 ⟨(i 2).val, (i 2).isLt⟩ e)) :
    k2_pay1 (F := Ideal) x0 x1 j = proj A Wo i := by
  obtain ⟨r, f, rfl⟩ : ∃ (r : Fin 512) (f : Fin 1024), j = ix3 0 r f :=
    ⟨⟨(j 1).val, (j 1).isLt⟩, ⟨(j 2).val, (j 2).isLt⟩, funext fun a => match a with
      | ⟨0, _⟩ => Fin.ext (by have h : (j 0).val < 1 := (j 0).isLt; show (j 0).val = 0; omega)
      | ⟨1, _⟩ => rfl
      | ⟨2, _⟩ => rfl⟩
  refine (pay_apply x0 x1 r f).trans ?_
  show _ = ∑ e : Fin 1024, _
  refine Finset.sum_congr rfl fun e _ => ?_
  rw [h0 (Attn.headOf e) (Attn.laneOf e), h1 e]

/-- The windows' index maps, decided over the grid: the attention window moves with the output window (batch with
    batch, token block with token block, all heads and lanes), the weight window stays, and the output's block
    indices stay in their ranges. -/
theorem idx_facts : ∀ t : Fin cfg2.N,
    win2_0.index t (0 : Fin 4) = win2_2.index t (0 : Fin 3)
    ∧ win2_0.index t (1 : Fin 4) = 0
    ∧ win2_0.index t (2 : Fin 4) = win2_2.index t (1 : Fin 3)
    ∧ win2_0.index t (3 : Fin 4) = 0
    ∧ win2_1.index t (0 : Fin 2) = 0
    ∧ win2_1.index t (1 : Fin 2) = 0
    ∧ win2_2.index t (2 : Fin 3) = 0
    ∧ win2_2.index t (0 : Fin 3) ≤ 3
    ∧ win2_2.index t (1 : Fin 3) ≤ 3 :=
  (by decide +kernel : ∀ t : Fin grid2.N, _)

/-- Every (batch, token block) pair is some grid point's output block. -/
theorem idx_onto : ∀ (q0 : Fin 4) (q1 : Fin 4), ∃ t : Fin cfg2.N, win2_2.index t = ![q0.val, q1.val, 0] :=
  (by decide +kernel : ∀ (q0 : Fin 4) (q1 : Fin 4), ∃ t : Fin grid2.N, win2_2.index t = ![q0.val, q1.val, 0])

/-- The attention window's block at point t, read at y, is the attention array at the index y sits under. -/
theorem attn_block_apply (c : Dev nD) (t : Fin cfg2.N) (y : S1x16x512x64.Idx) (k : S4x16x2048x64.Idx)
    (hk0 : (k 0).val = win2_0.index t (0 : Fin 4) * 1 + (y 0).val)
    (hk1 : (k 1).val = win2_0.index t (1 : Fin 4) * 16 + (y 1).val)
    (hk2 : (k 2).val = win2_0.index t (2 : Fin 4) * 512 + (y 2).val)
    (hk3 : (k 3).val = win2_0.index t (3 : Fin 4) * 64 + (y 3).val) :
    (iblk2 V c 0 t : S1x16x512x64.Idx → EReal) y = (V c main_v9 : S4x16x2048x64.Idx → EReal) k := by
  unfold iblk2
  rw [View.read_apply]
  show (V c main_v9 : S4x16x2048x64.Idx → EReal) _ = _
  congr 1
  funext a
  apply Fin.ext
  match a with
  | ⟨0, _⟩ => show win2_0.index t (0 : Fin 4) * 1 + 1 * (y 0).val = (k 0).val; omega
  | ⟨1, _⟩ => show win2_0.index t (1 : Fin 4) * 16 + 1 * (y 1).val = (k 1).val; omega
  | ⟨2, _⟩ => show win2_0.index t (2 : Fin 4) * 512 + 1 * (y 2).val = (k 2).val; omega
  | ⟨3, _⟩ => show win2_0.index t (3 : Fin 4) * 64 + 1 * (y 3).val = (k 3).val; omega

/-- The weight window's block at point t, read at y, is the weight array at the index y sits under. -/
theorem weight_block_apply (c : Dev nD) (t : Fin cfg2.N) (y : S1024x1024.Idx) (k : S1024x1024.Idx)
    (hk0 : (k 0).val = win2_1.index t (0 : Fin 2) * 1024 + (y 0).val)
    (hk1 : (k 1).val = win2_1.index t (1 : Fin 2) * 1024 + (y 1).val) :
    (iblk2 V c 1 t : S1024x1024.Idx → EReal) y = (V c main_v7 : S1024x1024.Idx → EReal) k := by
  unfold iblk2
  rw [View.read_apply]
  show (V c main_v7 : S1024x1024.Idx → EReal) _ = _
  congr 1
  funext a
  apply Fin.ext
  match a with
  | ⟨0, _⟩ => show win2_1.index t (0 : Fin 2) * 1024 + 1 * (y 0).val = (k 0).val; omega
  | ⟨1, _⟩ => show win2_1.index t (1 : Fin 2) * 1024 + 1 * (y 1).val = (k 1).val; omega

/-- What point t writes back is block t of the projection of the attention and weight arrays as the region finds them. -/
theorem flushed_eq (c : Dev nD) (t : Fin cfg2.N) :
    (dat2 V c).flushed 2 t = ((cfg2.win 2).blk t).view.read (Elt Ideal) (proj (V c main_v9) (V c main_v7)) := by
  show (cfg2.win 2).cut (grid2.coords t) ((dat2 V c).after 2 t) = _
  rw [after2_2]
  unfold out2_2
  rw [View.canon_unit_zero hz3]
  simp only [View.ld_unit_zero (S := S1x16x512x64) hz4, View.ld_unit_zero (S := S1024x1024) hz2]
  obtain ⟨e0, e1, e2, e3, e4, e5, e6, e7, e8⟩ := idx_facts t
  funext j
  show k2_pay1 (F := Ideal) (iblk2 V c 0 t) (iblk2 V c 1 t) j = proj (V c main_v9) (V c main_v7) (((cfg2.win 2).blk t).view.emb j)
  have hj0 : (j 0).val < 1 := (j 0).isLt
  have i0 : ((((cfg2.win 2).blk t).view.emb j) 0).val = win2_2.index t (0 : Fin 3) * 1 + 1 * (j 0).val := rfl
  have i1 : ((((cfg2.win 2).blk t).view.emb j) 1).val = win2_2.index t (1 : Fin 3) * 512 + 1 * (j 1).val := rfl
  have i2 : ((((cfg2.win 2).blk t).view.emb j) 2).val = win2_2.index t (2 : Fin 3) * 1024 + 1 * (j 2).val := rfl
  refine block_value (V c main_v9) (V c main_v7) (iblk2 V c 0 t) (iblk2 V c 1 t) j (((cfg2.win 2).blk t).view.emb j) (fun h d => ?_) (fun e => ?_)
  · refine attn_block_apply V c t _ _ ?_ ?_ ?_ ?_
    · show ((((cfg2.win 2).blk t).view.emb j) 0).val = win2_0.index t (0 : Fin 4) * 1 + 0; omega
    · show h.val = win2_0.index t (1 : Fin 4) * 16 + h.val; omega
    · show ((((cfg2.win 2).blk t).view.emb j) 1).val = win2_0.index t (2 : Fin 4) * 512 + (j 1).val; omega
    · show d.val = win2_0.index t (3 : Fin 4) * 64 + d.val; omega
  · refine weight_block_apply V c t _ _ ?_ ?_
    · show ((((cfg2.win 2).blk t).view.emb j) 2).val = win2_1.index t (0 : Fin 2) * 1024 + (j 2).val; omega
    · show e.val = win2_1.index t (1 : Fin 2) * 1024 + e.val; omega

/-- An index of the output array is in point t's block iff each coordinate is in the block's range on its axis. -/
theorem mem_blk (t : Fin cfg2.N) (i : S4x2048x1024.Idx) :
    i ∈ ((cfg2.win 2).blk t).view.set ↔ ∀ a : Fin 3, win2_2.index t a * S1x512x1024.size a ≤ (i a).val ∧ (i a).val < win2_2.index t a * S1x512x1024.size a + S1x512x1024.size a := by
  show i ∈ ((View.whole main_v10).slice (win2_2.rect t)).set ↔ _
  rw [View.set_slice_whole, Rect.mem_set_unit]
  exact Iff.rfl

/-- Every index of the output array lies in the block of the grid point its batch and token block name. -/
theorem covered (i : S4x2048x1024.Idx) :
    ∃ t : Fin cfg2.N, (cfg2.win 2).flush t = true ∧ i ∈ ((cfg2.win 2).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win2_2.index t (0 : Fin 3) = (i 0).val := congrFun ht 0
  have q1 : win2_2.index t (1 : Fin 3) = (i 1).val / 512 := congrFun ht 1
  have q2 : win2_2.index t (2 : Fin 3) = 0 := congrFun ht 2
  refine ⟨t, flush2_2 t, ?_⟩
  rw [mem_blk]
  intro a
  match a with
  | ⟨0, _⟩ => show win2_2.index t (0 : Fin 3) * 1 ≤ (i 0).val ∧ (i 0).val < win2_2.index t (0 : Fin 3) * 1 + 1; omega
  | ⟨1, _⟩ => show win2_2.index t (1 : Fin 3) * 512 ≤ (i 1).val ∧ (i 1).val < win2_2.index t (1 : Fin 3) * 512 + 512; omega
  | ⟨2, _⟩ => show win2_2.index t (2 : Fin 3) * 1024 ≤ (i 2).val ∧ (i 2).val < win2_2.index t (2 : Fin 3) * 1024 + 1024; omega

/-- The output array after the region's last point is the projection, everywhere. -/
theorem final_eq (c : Dev nD) : (dat2 V c).arrAt 2 cfg2.N = proj (V c main_v9) (V c main_v7) :=
  (dat2 V c).arrAt_eq_of_cover 2 (proj (V c main_v9) (V c main_v7)) (fun t _ => flushed_eq V c t) covered

/-- The stated value of the output array, index by index. -/
theorem final (c : Dev nD) (b : Fin 4) (s : Fin 2048) (f : Fin 1024) :
    ((dat2 V c).arrAt 2 cfg2.N : S4x2048x1024.Idx → EReal) (ix3 b s f)
      = Attn.outP (fun b h s d => (V c main_v9 : S4x16x2048x64.Idx → EReal) (ix4 b h s d))
          (fun f e => (V c main_v7 : S1024x1024.Idx → EReal) (ix2 f e)) b s f := by
  rw [final_eq V c]

end Cert.AttnK.Region2

end
-- ==== Proof.Perm.lean ====
/-
  The row permutation the kernel's program applies to the fused weight before its first region, read off the
  3072-entry literal index table: the table's entry r, read as a signed integer and clamped into the rows, is
  (r % 64) · 48 + (r / 1024) · 16 + (r / 64 % 16). So the row it puts at position t·1024 + h·64 + d — selector t,
  head h, lane d — is the original row d·48 + t·16 + h.
-/
import proofs.«410984_j6485400617573_3_alg».proof.KernelIdeal
import proofs.«410984_j6485400617573_3_alg».proof.Proof.Spec

noncomputable section

namespace Cert.AttnK

open Idealize.ShloMosaic Cert.KernelIdeal

/-- The source row of position `r`: the literal table's entry read signed and clamped into [0, 3071]. -/
def perm (r : Fin 3072) : Fin 3072 := ⟨min (lit0 r).toInt.toNat (3072 - 1), by omega⟩

theorem perm_def (r : Fin 3072) : (perm r).val = min (lit0 r).toInt.toNat (3072 - 1) := rfl

set_option maxRecDepth 100000 in
/-- Every entry of the table, checked by evaluation. -/
theorem perm_val : ∀ r : Fin 3072, (perm r).val = (r.val % 64) * 48 + (r.val / 1024) * 16 + (r.val / 64 % 16) := by
  decide +kernel

/-- Position (t, h, d) in selector-major order holds the lane-major row of (t, h, d). -/
theorem perm_rowK (t : Fin 3) (h : Fin 16) (d : Fin 64) : perm (Attn.rowK t h d) = Attn.rowR t h d := by
  refine Fin.ext ?_
  rw [perm_val]
  have := t.isLt; have := h.isLt; have := d.isLt
  show (t.val * 1024 + h.val * 64 + d.val) % 64 * 48 + (t.val * 1024 + h.val * 64 + d.val) / 1024 * 16
      + (t.val * 1024 + h.val * 64 + d.val) / 64 % 16 = d.val * 48 + t.val * 16 + h.val
  omega

attribute [irreducible] perm

end Cert.AttnK

end
-- ==== Proof.Host.lean ====
/-
  What the first region finds in its three input arrays, from the launch memory: the host operations before it are the
  format changes of the three arguments (the identity on extended reals) and, for the fused weight, a row gather
  through the literal index table. So the token array and the output weight are the arguments themselves, and row r of
  the gathered weight is row `perm r` of the argument.
-/
import proofs.«410984_j6485400617573_3_alg».proof.Proof.Gen.KernelIdeal.Frame
import proofs.«410984_j6485400617573_3_alg».proof.Proof.Perm
import Idealize.ShloMosaic.Lib.StableHlo.Run
import Idealize.ShloMosaic.Lib.Pipeline.Value
import Idealize.ShloMosaic.Lib.ValueIdx

noncomputable section

namespace Cert.AttnK.Host

open Idealize.ShloMosaic Idealize.ShloMosaic.TcCoe Idealize.SL.Sem Idealize.ShloMosaic.Pipeline Idealize.ShloMosaic.ValueIdx
open Idealize.ShloMosaic.StableHlo
open Cert.KernelIdeal Cert.KernelIdeal.Gen

/-! ## A row gather read at an index -/

/-- Result entry (r, e) of the row gather is the operand at the row the start index `idx[r, 0]` names — read signed and
    clamped into the rows — and column e. -/
theorem gather_row {α : Type} (x : S3072x1024.Idx → α) (idx : IVec S3072x1 32) (r : Fin 3072) (e : Fin 1024) :
    Host.gather gather_S3072x1024_S3072x1_S3072x1024_1_0_n_n_0_1_11024 x idx (ix2 r e)
      = x (ix2 ⟨min (idx (ix2 r (0 : Fin 1))).toInt.toNat (3072 - 1), by omega⟩ e) := by
  unfold Host.gather
  refine congrArg x (funext fun a => Fin.ext ?_)
  match a with
  | ⟨0, _⟩ =>
    show gather_S3072x1024_S3072x1_S3072x1024_1_0_n_n_0_1_11024.start (ix2 r e) idx 0 + gather_S3072x1024_S3072x1_S3072x1024_1_0_n_n_0_1_11024.batchCoord (ix2 r e) 0 + gather_S3072x1024_S3072x1_S3072x1024_1_0_n_n_0_1_11024.offCoord (ix2 r e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S3072x1024_S3072x1_S3072x1024_1_0_n_n_0_1_11024.startIndexMap from List.mem_singleton.mpr rfl)]
    have hsi : gather_S3072x1024_S3072x1_S3072x1024_1_0_n_n_0_1_11024.siIdx (ix2 r e) ⟨List.idxOf (0 : Fin 2) gather_S3072x1024_S3072x1_S3072x1024_1_0_n_n_0_1_11024.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show gather_S3072x1024_S3072x1_S3072x1024_1_0_n_n_0_1_11024.start (ix2 r e) idx 1 + gather_S3072x1024_S3072x1_S3072x1024_1_0_n_n_0_1_11024.batchCoord (ix2 r e) 1 + gather_S3072x1024_S3072x1_S3072x1024_1_0_n_n_0_1_11024.offCoord (ix2 r e) 1 = e.val
    rw [GatherDims.batchCoord_eq_zero _ _ _ List.not_mem_nil]
    unfold GatherDims.start
    rw [dif_neg (show ¬ (1 : Fin 2) ∈ gather_S3072x1024_S3072x1_S3072x1024_1_0_n_n_0_1_11024.startIndexMap by decide)]
    unfold GatherDims.offCoord
    rw [dif_pos (show (1 : Fin 2) ∈ gather_S3072x1024_S3072x1_S3072x1024_1_0_n_n_0_1_11024.sKept by decide)]
    simp only [Nat.zero_add, Nat.add_zero]
    rfl

/-! ## The three input arrays of the first region -/

variable (m : (ℓ : Loc nD τ sig) → Buf (Elt Ideal) ℓ) (ρ : Dev nD → PrngReg)

/-- The token array the first region reads is the first argument. -/
theorem V1_x (c : Dev nD) :
    (V1 m ρ c main_v5 : S4x2048x1024.Idx → EReal) = (m ((c.tc : Thread nD τ).loc main_arg0) : S4x2048x1024.Idx → EReal) := by
  show StableHlo.after hostOps0 (W0 m ρ c) (Proc.devRef .tc main_v5) = _
  after_results
  rfl

/-- The output weight the third region reads is, at the first region's entry, the third argument. -/
theorem V1_wo (c : Dev nD) :
    (V1 m ρ c main_v7 : S1024x1024.Idx → EReal) = (m ((c.tc : Thread nD τ).loc main_arg2) : S1024x1024.Idx → EReal) := by
  show StableHlo.after hostOps0 (W0 m ρ c) (Proc.devRef .tc main_v7) = _
  after_results
  rfl

/-- The start indices of the row gather: the literal table, through a select on an all-false mask and a broadcast to
    a column. -/
abbrev idxArr : IVec S3072x1 32 :=
  broadcastInDim S3072x1 ![0] bcast_S3072_S3072x1_0
    (select (constantI S3072 1 0#1)
      (addi (fun i => lit0 (S3072.rowMajor i)) (broadcastInDim S3072 ![] bcast_S_S3072 (constantI S_ 32 3072#32)))
      fun i => lit0 (S3072.rowMajor i))

/-- The start index of row r is the table's entry r. -/
theorem idxArr_apply (r : Fin 3072) : idxArr (ix2 r (0 : Fin 1)) = lit0 r := by
  unfold idxArr
  rw [broadcastInDim_apply (![0] : Fin 1 → Fin 2) bcast_S3072_S3072x1_0 _ (ix2 r (0 : Fin 1)) (ix1 r)
    (fun a => match a with
      | ⟨0, _⟩ => by show r.val = if (3072 : Nat) = 1 then 0 else r.val; rw [if_neg (by decide)])]
  show Scalar.select 0#1 _ (lit0 (S3072.rowMajor (ix1 r))) = _
  rw [select_zero]
  refine congrArg lit0 (Fin.ext ?_)
  rw [Shape.rowMajor_val_one]

/-- The weight array the first region reads is the row gather of the second argument. -/
theorem V1_w_term (c : Dev nD) :
    (V1 m ρ c main_v6 : S3072x1024.Idx → EReal)
      = Host.gather gather_S3072x1024_S3072x1_S3072x1024_1_0_n_n_0_1_11024 (m ((c.tc : Thread nD τ).loc main_arg1) : S3072x1024.Idx → EReal) idxArr := by
  show StableHlo.after hostOps0 (W0 m ρ c) (Proc.devRef .tc main_v6) = _
  after_results
  rfl

/-- Row r of the weight array the first region reads is row `perm r` of the second argument. -/
theorem V1_w (c : Dev nD) (r : Fin 3072) (e : Fin 1024) :
    (V1 m ρ c main_v6 : S3072x1024.Idx → EReal) (ix2 r e)
      = (m ((c.tc : Thread nD τ).loc main_arg1) : S3072x1024.Idx → EReal) (ix2 (perm r) e) := by
  rw [V1_w_term, gather_row]
  refine congrArg _ (congrArg (fun k => ix2 k e) (Fin.ext ?_))
  rw [perm_def]
  show min (idxArr (ix2 r (0 : Fin 1))).toInt.toNat (3072 - 1) = _
  rw [idxArr_apply]

end Cert.AttnK.Host

end
-- ==== Proof.Bridge.lean ====
/-
  The two arrangements of the attention computation are one function.

  One program takes the fused weight's rows selector-major and lane-minor, after the rows have been permuted so that
  the row serving entry (t, h, d) holds what the other program's lane-major, head-minor row for (t, h, d) holds; and it
  scales each query by 1/8 before the products where the other scales the finished score. Given the permutation fact,
  the projected queries, keys and values agree entry by entry, the scores agree (`scoreK_eq_scoreR`), and everything
  after the scores is the same expression.
-/
import proofs.«410984_j6485400617573_3_alg».proof.Proof.Spec

noncomputable section

namespace Cert.Attn

/-- Reading the weight through a row permutation that carries the selector-major row of (t, h, d) to its lane-major row
    turns the selector-major computation with the early scaling into the lane-major one with the late scaling. -/
theorem mha_rowK_perm_eq_mha_rowR (perm : Fin 3072 → Fin 3072) (hperm : ∀ t h d, perm (rowK t h d) = rowR t h d)
    (X : Fin 4 → Fin 2048 → Fin 1024 → EReal) (W : Fin 3072 → Fin 1024 → EReal) (Wo : Fin 1024 → Fin 1024 → EReal) :
    mha rowK scoreK X (fun r => W (perm r)) Wo = mha rowR scoreR X W Wo := by
  have hq : ∀ t, qkv rowK X (fun r => W (perm r)) t = qkv rowR X W t := by
    intro t; funext b h s d
    unfold qkv
    show dot (X b s) (W (perm (rowK t h d))) = _
    rw [hperm]
  unfold mha
  rw [scoreK_eq_scoreR, hq 0, hq 1, hq 2]

end Cert.Attn

end
-- ==== Proof.KernelValue.lean ====
/-
  The kernel program's result array, from the launch memory: the three regions' values chained through the buffer
  contents at the region boundaries. The third region's output is the output projection of what the second left,
  the second's the attention over what the first left, the first's the three projections of the token array against
  the row-gathered weight; the arrays a later region reads are untouched by the regions between. Reading the gathered
  weight as the argument's rows permuted, and the permutation as carrying selector-major rows to lane-major ones,
  the result is the lane-major attention computation of the three arguments with the scores scaled after their sums.
-/
import proofs.«410984_j6485400617573_3_alg».proof.Proof.Gen.KernelIdeal.Frame
import proofs.«410984_j6485400617573_3_alg».proof.Proof.Region0
import proofs.«410984_j6485400617573_3_alg».proof.Proof.Region1
import proofs.«410984_j6485400617573_3_alg».proof.Proof.Region2
import proofs.«410984_j6485400617573_3_alg».proof.Proof.Host
import proofs.«410984_j6485400617573_3_alg».proof.Proof.Bridge

noncomputable section

namespace Cert.AttnK.Value

open Idealize.ShloMosaic Idealize.ShloMosaic.TcCoe Idealize.SL.Sem Idealize.ShloMosaic.Pipeline Idealize.ShloMosaic.ValueIdx
open Cert.KernelIdeal Cert.KernelIdeal.Gen

variable (m : (ℓ : Loc nD τ sig) → Buf (Elt Ideal) ℓ) (ρ : Dev nD → PrngReg)

/-- The token argument by coordinates. -/
abbrev X (c : Dev nD) : Fin 4 → Fin 2048 → Fin 1024 → EReal :=
  fun b s e => (m ((c.tc : Thread nD τ).loc main_arg0) : S4x2048x1024.Idx → EReal) (ix3 b s e)
/-- The fused weight argument by coordinates. -/
abbrev W (c : Dev nD) : Fin 3072 → Fin 1024 → EReal :=
  fun r e => (m ((c.tc : Thread nD τ).loc main_arg1) : S3072x1024.Idx → EReal) (ix2 r e)
/-- The output weight argument by coordinates. -/
abbrev Wo (c : Dev nD) : Fin 1024 → Fin 1024 → EReal :=
  fun f e => (m ((c.tc : Thread nD τ).loc main_arg2) : S1024x1024.Idx → EReal) (ix2 f e)

/-- What the first region reads: the tokens, and the weight's rows permuted. -/
theorem V1_x_fun (c : Dev nD) :
    (fun b s e => (V1 m ρ c main_v5 : S4x2048x1024.Idx → EReal) (ix3 b s e)) = X m c := by
  funext b s e; rw [Host.V1_x]
theorem V1_w_fun (c : Dev nD) :
    (fun r e => (V1 m ρ c main_v6 : S3072x1024.Idx → EReal) (ix2 r e)) = fun r => W m c (perm r) := by
  funext r e; exact Host.V1_w m ρ c r e

/-- The query, key and value arrays the second region reads are the first region's outputs. -/
theorem V2_q (c : Dev nD) :
    (fun b h s d => (V2 m ρ c main_v8_0 : S4x16x2048x64.Idx → EReal) (ix4 b h s d))
      = Attn.qkv Attn.rowK (X m c) (fun r => W m c (perm r)) 0 := by
  funext b h s d
  refine ((congrFun (W2_arr m ρ c 2) (ix4 b h s d)).trans (Region0.final_q (V1 m ρ) c b h s d)).trans ?_
  rw [V1_x_fun, V1_w_fun]
theorem V2_k (c : Dev nD) :
    (fun b h s d => (V2 m ρ c main_v8_1 : S4x16x2048x64.Idx → EReal) (ix4 b h s d))
      = Attn.qkv Attn.rowK (X m c) (fun r => W m c (perm r)) 1 := by
  funext b h s d
  refine ((congrFun (W2_arr m ρ c 3) (ix4 b h s d)).trans (Region0.final_k (V1 m ρ) c b h s d)).trans ?_
  rw [V1_x_fun, V1_w_fun]
theorem V2_v (c : Dev nD) :
    (fun b h s d => (V2 m ρ c main_v8_2 : S4x16x2048x64.Idx → EReal) (ix4 b h s d))
      = Attn.qkv Attn.rowK (X m c) (fun r => W m c (perm r)) 2 := by
  funext b h s d
  refine ((congrFun (W2_arr m ρ c 4) (ix4 b h s d)).trans (Region0.final_v (V1 m ρ) c b h s d)).trans ?_
  rw [V1_x_fun, V1_w_fun]

/-- The attention array the third region reads is the second region's output. -/
theorem V3_attn (c : Dev nD) :
    (fun b h s d => (V3 m ρ c main_v9 : S4x16x2048x64.Idx → EReal) (ix4 b h s d))
      = Attn.attn Attn.scoreK (Attn.qkv Attn.rowK (X m c) (fun r => W m c (perm r)) 0)
          (Attn.qkv Attn.rowK (X m c) (fun r => W m c (perm r)) 1)
          (Attn.qkv Attn.rowK (X m c) (fun r => W m c (perm r)) 2) := by
  funext b h i d
  refine ((congrFun (W3_arr m ρ c 3) (ix4 b h i d)).trans (Region1.final (V2 m ρ) c b h i d)).trans ?_
  rw [V2_q, V2_k, V2_v]

/-- The output weight the third region reads is still the argument: neither earlier region writes it. -/
theorem V3_wo (c : Dev nD) :
    (V3 m ρ c main_v7 : S1024x1024.Idx → EReal) = (m ((c.tc : Thread nD τ).loc main_arg2) : S1024x1024.Idx → EReal) :=
  calc (V3 m ρ c main_v7 : S1024x1024.Idx → EReal)
    _ = W2 m ρ c (Proc.devRef .tc main_v7) := W3_of_ne m ρ c main_v7 (by decide)
    _ = W1 m ρ c (Proc.devRef .tc main_v7) := W2_of_ne m ρ c main_v7 (by decide)
    _ = _ := Host.V1_wo m ρ c

theorem V3_wo_fun (c : Dev nD) :
    (fun f e => (V3 m ρ c main_v7 : S1024x1024.Idx → EReal) (ix2 f e)) = Wo m c := by
  funext f e; rw [V3_wo]

/-- The result array after the last region, entry by entry, in the kernel's own arrangement. -/
theorem W4_value (c : Dev nD) (b : Fin 4) (s : Fin 2048) (f : Fin 1024) :
    (W4 m ρ c (Proc.devRef .tc main_v10) : S4x2048x1024.Idx → EReal) (ix3 b s f)
      = Attn.mha Attn.rowK Attn.scoreK (X m c) (fun r => W m c (perm r)) (Wo m c) b s f := by
  refine ((congrFun (W4_arr m ρ c 2) (ix3 b s f)).trans (Region2.final (V3 m ρ) c b s f)).trans ?_
  rw [V3_attn, V3_wo_fun]
  rfl

/-- The whole-array function both programs end at. -/
def result (c : Dev nD) : S4x2048x1024.Idx → EReal :=
  fun i => Attn.mha Attn.rowR Attn.scoreR (X m c) (W m c) (Wo m c) (i 0) (i 1) (i 2)

/-- The kernel program's result array is that function of the arguments. -/
theorem W4_result (c : Dev nD) :
    (W4 m ρ c (Proc.devRef .tc main_v10) : S4x2048x1024.Idx → EReal) = result m c := by
  funext i
  obtain ⟨b, s, f, rfl⟩ : ∃ (b : Fin 4) (s : Fin 2048) (f : Fin 1024), i = ix3 b s f := ⟨i 0, i 1, i 2, eq_ix3 i⟩
  rw [W4_value, Attn.mha_rowK_perm_eq_mha_rowR perm perm_rowK]
  rfl

end Cert.AttnK.Value

end
-- ==== Proof.Reference.lean ====
/-
  The reference program's result, read as values: at (b, s, f) it is the whole attention computation with the
  fused weight's rows taken lane-major (row d·48 + t·16 + h for entry (t, h, d)) and each score scaled by 1/8
  after its sum.
-/
import proofs.«410984_j6485400617573_3_alg».proof.Proof.Gen.ReferenceIdeal.Read
import proofs.«410984_j6485400617573_3_alg».proof.Proof.Spec
import Idealize.ShloMosaic.Lib.Pipeline.Value
import Idealize.ShloMosaic.Lib.ValueIdx
import Idealize.ShloMosaic.PureOps.Ideal.Laws

noncomputable section

namespace Cert.AttnR

open Idealize.ShloMosaic Idealize.ShloMosaic.TcCoe Idealize.SL.Sem Idealize.ShloMosaic.ValueIdx
open Cert.ReferenceIdeal Cert.ReferenceIdeal.Gen

open Cert.ReferenceIdeal.Read

/-! ## The arguments by coordinates -/

/-- The activations and the fused projection weight as functions of their coordinates. -/
abbrev argX (x0 : (⟨S4x2048x1024, .f32⟩ : BufTy).Contents (Elt Ideal)) : Fin 4 → Fin 2048 → Fin 1024 → EReal :=
  fun b s e => (x0 : S4x2048x1024.Idx → EReal) (ix3 b s e)
abbrev argW (x1 : (⟨S3072x1024, .f32⟩ : BufTy).Contents (Elt Ideal)) : Fin 3072 → Fin 1024 → EReal :=
  fun r e => (x1 : S3072x1024.Idx → EReal) (ix2 r e)

/-! ## The fused projection and its three parts -/

/-- Entry (b, s, r) of the fused projection is token (b, s) against weight row r. -/
theorem proj_apply (x0 : (⟨S4x2048x1024, .f32⟩ : BufTy).Contents (Elt Ideal)) (x1 : (⟨S3072x1024, .f32⟩ : BufTy).Contents (Elt Ideal))
    (b : Fin 4) (s : Fin 2048) (r : Fin 3072) :
    val_main_v0 (F := Ideal) x0 x1 (ix3 b s r) = Attn.dot (argX x0 b s) (argW x1 r) := by
  rw [val_main_v0_apply]
  unfold Attn.dot
  refine Finset.sum_congr rfl fun k _ => ?_
  have el : lidx_main_v0 (ix3 b s r) k = ix3 b s k := funext fun a => Fin.ext (by
    match a with
    | ⟨0, _⟩ => rfl
    | ⟨1, _⟩ => rfl
    | ⟨2, _⟩ => rfl)
  have er : ridx_main_v0 (ix3 b s r) k = ix2 r k := funext fun a => Fin.ext (by
    match a with
    | ⟨0, _⟩ => rfl
    | ⟨1, _⟩ => rfl)
  rw [el, er]

/-- Splitting the 3072 fused channels as 64 × 3 × 16 and moving the selector and the head to the front puts
    weight row d·48 + t·16 + h at (t, b, h, s, d). -/
theorem split_apply (x0 : (⟨S4x2048x1024, .f32⟩ : BufTy).Contents (Elt Ideal)) (x1 : (⟨S3072x1024, .f32⟩ : BufTy).Contents (Elt Ideal))
    (t : Fin 3) (b : Fin 4) (h : Fin 16) (s : Fin 2048) (d : Fin 64) :
    val_main_v2 (F := Ideal) x0 x1 (ix5 t b h s d) = Attn.qkv Attn.rowR (argX x0) (argW x1) t b h s d := by
  rw [val_main_v2_apply, val_main_v1_apply]
  have e : idx_main_v1 (idx_main_v2 (ix5 t b h s d)) = ix3 b s (Attn.rowR t h d) := funext fun a => Fin.ext (by
    have ht := t.isLt; have hb := b.isLt; have hh := h.isLt; have hs := s.isLt; have hd := d.isLt
    match a with
    | ⟨0, _⟩ =>
      show ((((b.val * 2048 + s.val) * 64 + d.val) * 3 + t.val) * 16 + h.val) / 6291456 = b.val
      omega
    | ⟨1, _⟩ =>
      show ((((b.val * 2048 + s.val) * 64 + d.val) * 3 + t.val) * 16 + h.val) / 3072 % 2048 = s.val
      omega
    | ⟨2, _⟩ =>
      show ((((b.val * 2048 + s.val) * 64 + d.val) * 3 + t.val) * 16 + h.val) % 3072 = d.val * 48 + t.val * 16 + h.val
      omega)
  rw [e, proj_apply]
  rfl

/-- A reshape that only drops a leading unit axis reads (0, b, h, s, d) at (b, h, s, d). -/
theorem unit_axis_idx (b : Fin 4) (h : Fin 16) (s : Fin 2048) (d : Fin 64) (a : Fin 5) :
    (idx_main_v4 (ix4 b h s d) a).val = (ix5 (0 : Fin 1) b h s d a).val := by
  have hb := b.isLt; have hh := h.isLt; have hs := s.isLt; have hd := d.isLt
  match a with
  | ⟨0, _⟩ => rfl
  | ⟨1, _⟩ =>
    show (((b.val * 16 + h.val) * 2048 + s.val) * 64 + d.val) / 2097152 % 4 = b.val
    omega
  | ⟨2, _⟩ =>
    show (((b.val * 16 + h.val) * 2048 + s.val) * 64 + d.val) / 131072 % 16 = h.val
    omega
  | ⟨3, _⟩ =>
    show (((b.val * 16 + h.val) * 2048 + s.val) * 64 + d.val) / 64 % 2048 = s.val
    omega
  | ⟨4, _⟩ =>
    show (((b.val * 16 + h.val) * 2048 + s.val) * 64 + d.val) % 64 = d.val
    omega

/-- The queries: selector 0. -/
theorem q_apply (x0 : (⟨S4x2048x1024, .f32⟩ : BufTy).Contents (Elt Ideal)) (x1 : (⟨S3072x1024, .f32⟩ : BufTy).Contents (Elt Ideal))
    (b : Fin 4) (h : Fin 16) (s : Fin 2048) (d : Fin 64) :
    val_main_v4 (F := Ideal) x0 x1 (ix4 b h s d) = Attn.qkv Attn.rowR (argX x0) (argW x1) 0 b h s d := by
  rw [val_main_v4_apply, val_main_v3_apply]
  have e : idx_main_v3 (idx_main_v4 (ix4 b h s d)) = ix5 (0 : Fin 3) b h s d := funext fun a => Fin.ext (by
    have u := unit_axis_idx b h s d
    match a with
    | ⟨0, _⟩ => rfl
    | ⟨1, _⟩ => exact u 1
    | ⟨2, _⟩ => exact u 2
    | ⟨3, _⟩ => exact u 3
    | ⟨4, _⟩ => exact u 4)
  rw [e, split_apply]

/-- The keys: selector 1. -/
theorem k_apply (x0 : (⟨S4x2048x1024, .f32⟩ : BufTy).Contents (Elt Ideal)) (x1 : (⟨S3072x1024, .f32⟩ : BufTy).Contents (Elt Ideal))
    (b : Fin 4) (h : Fin 16) (s : Fin 2048) (d : Fin 64) :
    val_main_v6 (F := Ideal) x0 x1 (ix4 b h s d) = Attn.qkv Attn.rowR (argX x0) (argW x1) 1 b h s d := by
  rw [val_main_v6_apply, val_main_v5_apply]
  have e : idx_main_v5 (idx_main_v6 (ix4 b h s d)) = ix5 (1 : Fin 3) b h s d := funext fun a => Fin.ext (by
    have u := unit_axis_idx b h s d
    match a with
    | ⟨0, _⟩ => rfl
    | ⟨1, _⟩ => exact u 1
    | ⟨2, _⟩ => exact u 2
    | ⟨3, _⟩ => exact u 3
    | ⟨4, _⟩ => exact u 4)
  rw [e, split_apply]

/-- The values: selector 2. -/
theorem v_apply (x0 : (⟨S4x2048x1024, .f32⟩ : BufTy).Contents (Elt Ideal)) (x1 : (⟨S3072x1024, .f32⟩ : BufTy).Contents (Elt Ideal))
    (b : Fin 4) (h : Fin 16) (s : Fin 2048) (d : Fin 64) :
    val_main_v8 (F := Ideal) x0 x1 (ix4 b h s d) = Attn.qkv Attn.rowR (argX x0) (argW x1) 2 b h s d := by
  rw [val_main_v8_apply, val_main_v7_apply]
  have e : idx_main_v7 (idx_main_v8 (ix4 b h s d)) = ix5 (2 : Fin 3) b h s d := funext fun a => Fin.ext (by
    have u := unit_axis_idx b h s d
    match a with
    | ⟨0, _⟩ => rfl
    | ⟨1, _⟩ => exact u 1
    | ⟨2, _⟩ => exact u 2
    | ⟨3, _⟩ => exact u 3
    | ⟨4, _⟩ => exact u 4)
  rw [e, split_apply]

/-! ## The scores and their softmax -/

/-- The projected queries, keys and values by coordinates. -/
abbrev projQ (x0 : (⟨S4x2048x1024, .f32⟩ : BufTy).Contents (Elt Ideal)) (x1 : (⟨S3072x1024, .f32⟩ : BufTy).Contents (Elt Ideal)) :
    Fin 4 → Fin 16 → Fin 2048 → Fin 64 → EReal := Attn.qkv Attn.rowR (argX x0) (argW x1) 0
abbrev projK (x0 : (⟨S4x2048x1024, .f32⟩ : BufTy).Contents (Elt Ideal)) (x1 : (⟨S3072x1024, .f32⟩ : BufTy).Contents (Elt Ideal)) :
    Fin 4 → Fin 16 → Fin 2048 → Fin 64 → EReal := Attn.qkv Attn.rowR (argX x0) (argW x1) 1
abbrev projV (x0 : (⟨S4x2048x1024, .f32⟩ : BufTy).Contents (Elt Ideal)) (x1 : (⟨S3072x1024, .f32⟩ : BufTy).Contents (Elt Ideal)) :
    Fin 4 → Fin 16 → Fin 2048 → Fin 64 → EReal := Attn.qkv Attn.rowR (argX x0) (argW x1) 2

/-- The score row of query (b, h, i): its products with every key of the head, each sum scaled by 1/8. -/
abbrev srow (x0 : (⟨S4x2048x1024, .f32⟩ : BufTy).Contents (Elt Ideal)) (x1 : (⟨S3072x1024, .f32⟩ : BufTy).Contents (Elt Ideal))
    (b : Fin 4) (h : Fin 16) (i : Fin 2048) : Fin 2048 → EReal :=
  Attn.scoreR (projQ x0 x1 b h i) (projK x0 x1 b h)

/-- Score (b, h, i, j): the query row against key row j over the 64 lanes, times the broadcast 1/8. -/
theorem score_apply (x0 : (⟨S4x2048x1024, .f32⟩ : BufTy).Contents (Elt Ideal)) (x1 : (⟨S3072x1024, .f32⟩ : BufTy).Contents (Elt Ideal))
    (b : Fin 4) (h : Fin 16) (i j : Fin 2048) :
    val_main_v11 (F := Ideal) x0 x1 (ix4 b h i j) = srow x0 x1 b h i j := by
  rw [val_main_v11_apply, val_main_v9_apply, val_main_v10_apply, val_main_cst_apply]
  show (∑ k : Fin 64, _) * Attn.scale = (∑ d : Fin 64, _) * Attn.scale
  congr 1
  refine Finset.sum_congr rfl fun k _ => ?_
  have el : lidx_main_v9 (ix4 b h i j) k = ix4 b h i k := funext fun a => Fin.ext (by
    match a with
    | ⟨0, _⟩ => rfl
    | ⟨1, _⟩ => rfl
    | ⟨2, _⟩ => rfl
    | ⟨3, _⟩ => rfl)
  have er : ridx_main_v9 (ix4 b h i j) k = ix4 b h j k := funext fun a => Fin.ext (by
    match a with
    | ⟨0, _⟩ => rfl
    | ⟨1, _⟩ => rfl
    | ⟨2, _⟩ => rfl
    | ⟨3, _⟩ => rfl)
  rw [el, er, q_apply, k_apply]

/-- A maximum-reduce over the key axis from −∞, read at (b, h, i): the fold of max over the 2048 keys. -/
theorem reduceMax_apply (y : (⟨S4x16x2048x2048, .f32⟩ : BufTy).Contents (Elt Ideal)) (b : Fin 4) (h : Fin 16) (i : Fin 2048) :
    (Host.reduce (FloatOps.maximumf (F := Ideal) (φ := .f32)) y (val_main_cst_0 (F := Ideal)) reducesTo_S4x16x2048x2048_S4x16x2048_d3 h_S_ :
        (⟨S4x16x2048, .f32⟩ : BufTy).Contents (Elt Ideal)) (ix3 b h i)
      = Attn.rowMax fun j => y (ix4 b h i j) := by
  have hR : S4x16x2048x2048.Reduces [3] S4x16x2048 := by decide
  rw [Host.reduce_eq_fold_single (FloatOps.maximumf (F := Ideal) (φ := .f32)) y _ reducesTo_S4x16x2048x2048_S4x16x2048_d3 hR h_S_]
  have hf : (y ∘ hR.lift (ix3 b h i)) = fun j : Fin 2048 => y (ix4 b h i j) := funext fun k => congrArg y (funext fun a => Fin.ext (by
    match a with
    | ⟨0, _⟩ => rfl
    | ⟨1, _⟩ => rfl
    | ⟨2, _⟩ => rfl
    | ⟨3, _⟩ => rfl))
  rw [hf]
  rfl

/-- The row maximum the reference subtracts: the larger of −∞ and the reduce, which is the reduce. -/
theorem max_apply (x0 : (⟨S4x2048x1024, .f32⟩ : BufTy).Contents (Elt Ideal)) (x1 : (⟨S3072x1024, .f32⟩ : BufTy).Contents (Elt Ideal))
    (b : Fin 4) (h : Fin 16) (i : Fin 2048) :
    val_main_v14 (F := Ideal) x0 x1 (ix3 b h i) = Attn.rowMax (srow x0 x1 b h i) := by
  rw [val_main_v14_apply, val_main_v13_apply, val_main_cst_1_apply]
  unfold val_main_v12
  rw [reduceMax_apply]
  have hs : (fun j => val_main_v11 (F := Ideal) x0 x1 (ix4 b h i j)) = srow x0 x1 b h i := funext fun j => score_apply x0 x1 b h i j
  rw [hs]
  show max Attn.negInf (Attn.rowMax (srow x0 x1 b h i)) = Attn.rowMax (srow x0 x1 b h i)
  exact max_eq_right (by rw [Attn.negInf_eq]; exact bot_le)

/-- The exponential of a score less its row's maximum. -/
theorem exp_apply (x0 : (⟨S4x2048x1024, .f32⟩ : BufTy).Contents (Elt Ideal)) (x1 : (⟨S3072x1024, .f32⟩ : BufTy).Contents (Elt Ideal))
    (b : Fin 4) (h : Fin 16) (i j : Fin 2048) :
    val_main_v18 (F := Ideal) x0 x1 (ix4 b h i j)
      = Ideal.exp (srow x0 x1 b h i j - Attn.rowMax (srow x0 x1 b h i)) := by
  rw [val_main_v18_apply, val_main_v17_apply, val_main_v16_apply, val_main_v15_apply]
  have e : idx_main_v15 (idx_main_v16 (ix4 b h i j)) = ix3 b h i := funext fun a => Fin.ext (by
    match a with
    | ⟨0, _⟩ => rfl
    | ⟨1, _⟩ => rfl
    | ⟨2, _⟩ => rfl)
  rw [e, max_apply, score_apply]
  rfl

/-- The softmax denominator: zero plus the sum of the row's exponentials. -/
theorem den_apply (x0 : (⟨S4x2048x1024, .f32⟩ : BufTy).Contents (Elt Ideal)) (x1 : (⟨S3072x1024, .f32⟩ : BufTy).Contents (Elt Ideal))
    (b : Fin 4) (h : Fin 16) (i : Fin 2048) :
    val_main_v19 (F := Ideal) x0 x1 (ix3 b h i)
      = ∑ j : Fin 2048, Ideal.exp (srow x0 x1 b h i j - Attn.rowMax (srow x0 x1 b h i)) := by
  rw [val_main_v19_apply, val_main_cst_2_apply]
  show (Ideal.ofBits .f32 0x00000000#32 : EReal) + _ = _
  rw [Ideal.ofBits_zero_f32, zero_add]
  refine Finset.sum_congr rfl fun k _ => ?_
  have e : idx_main_v19 (ix3 b h i) k = ix4 b h i k := funext fun a => Fin.ext (by
    match a with
    | ⟨0, _⟩ => rfl
    | ⟨1, _⟩ => rfl
    | ⟨2, _⟩ => rfl
    | ⟨3, _⟩ => rfl)
  rw [e, exp_apply]

/-- The softmax weight of key j for query (b, h, i). -/
theorem soft_apply (x0 : (⟨S4x2048x1024, .f32⟩ : BufTy).Contents (Elt Ideal)) (x1 : (⟨S3072x1024, .f32⟩ : BufTy).Contents (Elt Ideal))
    (b : Fin 4) (h : Fin 16) (i j : Fin 2048) :
    val_main_v22 (F := Ideal) x0 x1 (ix4 b h i j) = Attn.softmax (srow x0 x1 b h i) j := by
  rw [val_main_v22_apply, val_main_v21_apply, val_main_v20_apply]
  have e : idx_main_v20 (idx_main_v21 (ix4 b h i j)) = ix3 b h i := funext fun a => Fin.ext (by
    match a with
    | ⟨0, _⟩ => rfl
    | ⟨1, _⟩ => rfl
    | ⟨2, _⟩ => rfl)
  rw [e, den_apply, exp_apply]
  rfl

/-! ## The attention output, the merged heads and the output projection -/

/-- Attention output (b, h, i, d): the softmax weights of query (b, h, i) against lane d of the head's value rows. -/
theorem attn_apply (x0 : (⟨S4x2048x1024, .f32⟩ : BufTy).Contents (Elt Ideal)) (x1 : (⟨S3072x1024, .f32⟩ : BufTy).Contents (Elt Ideal))
    (b : Fin 4) (h : Fin 16) (i : Fin 2048) (d : Fin 64) :
    val_main_v23 (F := Ideal) x0 x1 (ix4 b h i d)
      = Attn.attn Attn.scoreR (projQ x0 x1) (projK x0 x1) (projV x0 x1) b h i d := by
  rw [val_main_v23_apply]
  unfold Attn.attn Attn.attend
  refine Finset.sum_congr rfl fun k _ => ?_
  have el : lidx_main_v23 (ix4 b h i d) k = ix4 b h i k := funext fun a => Fin.ext (by
    match a with
    | ⟨0, _⟩ => rfl
    | ⟨1, _⟩ => rfl
    | ⟨2, _⟩ => rfl
    | ⟨3, _⟩ => rfl)
  have er : ridx_main_v23 (ix4 b h i d) k = ix4 b h k d := funext fun a => Fin.ext (by
    match a with
    | ⟨0, _⟩ => rfl
    | ⟨1, _⟩ => rfl
    | ⟨2, _⟩ => rfl
    | ⟨3, _⟩ => rfl)
  rw [el, er, soft_apply, v_apply]

/-- Laying the 16 heads of 64 lanes side by side: channel e of token (b, s) is head e / 64, lane e % 64. -/
theorem merge_apply (x0 : (⟨S4x2048x1024, .f32⟩ : BufTy).Contents (Elt Ideal)) (x1 : (⟨S3072x1024, .f32⟩ : BufTy).Contents (Elt Ideal))
    (b : Fin 4) (s : Fin 2048) (e : Fin 1024) :
    val_main_v25 (F := Ideal) x0 x1 (ix3 b s e)
      = Attn.attn Attn.scoreR (projQ x0 x1) (projK x0 x1) (projV x0 x1) b (Attn.headOf e) s (Attn.laneOf e) := by
  rw [val_main_v25_apply, val_main_v24_apply]
  have ix : idx_main_v24 (idx_main_v25 (ix3 b s e)) = ix4 b (Attn.headOf e) s (Attn.laneOf e) := funext fun a => Fin.ext (by
    have hb := b.isLt; have hs := s.isLt; have he := e.isLt
    match a with
    | ⟨0, _⟩ =>
      show ((b.val * 2048 + s.val) * 1024 + e.val) / 2097152 = b.val
      omega
    | ⟨1, _⟩ =>
      show ((b.val * 2048 + s.val) * 1024 + e.val) / 64 % 16 = e.val / 64
      omega
    | ⟨2, _⟩ =>
      show ((b.val * 2048 + s.val) * 1024 + e.val) / 1024 % 2048 = s.val
      omega
    | ⟨3, _⟩ =>
      show ((b.val * 2048 + s.val) * 1024 + e.val) % 64 = e.val % 64
      omega)
  rw [ix, attn_apply]

/-- The reference's result at (b, s, f): token (b, s)'s merged heads against row f of the output weight. -/
theorem ref_value (x0 : (⟨S4x2048x1024, .f32⟩ : BufTy).Contents (Elt Ideal)) (x1 : (⟨S3072x1024, .f32⟩ : BufTy).Contents (Elt Ideal))
    (x2 : (⟨S1024x1024, .f32⟩ : BufTy).Contents (Elt Ideal)) (b : Fin 4) (s : Fin 2048) (f : Fin 1024) :
    Cert.ReferenceIdeal.Read.val_main_v26 (F := Ideal) x0 x1 x2 (ix3 b s f)
      = Attn.mha Attn.rowR Attn.scoreR (fun b s e => (x0 : S4x2048x1024.Idx → EReal) (ix3 b s e))
          (fun r e => (x1 : S3072x1024.Idx → EReal) (ix2 r e)) (fun f e => (x2 : S1024x1024.Idx → EReal) (ix2 f e)) b s f := by
  rw [val_main_v26_apply]
  unfold Attn.mha Attn.outP
  refine Finset.sum_congr rfl fun k _ => ?_
  have el : lidx_main_v26 (ix3 b s f) k = ix3 b s k := funext fun a => Fin.ext (by
    match a with
    | ⟨0, _⟩ => rfl
    | ⟨1, _⟩ => rfl
    | ⟨2, _⟩ => rfl)
  have er : ridx_main_v26 (ix3 b s f) k = ix2 f k := funext fun a => Fin.ext (by
    match a with
    | ⟨0, _⟩ => rfl
    | ⟨1, _⟩ => rfl)
  rw [el, er, merge_apply]

end Cert.AttnR

end
-- ==== Proof.lean ====
/-
  The kernel — three pipelined regions: a fused query/key/value projection, softmax attention per head, and an output
  projection — against the plain multi-head-attention reference, over the extended reals.

  Both programs compute, for 4 sequences of 2048 tokens with 1024 channels and 16 heads of width 64, the output
  projection of the heads' attention outputs (Proof/Spec.lean writes the computation out). They differ in two places.
  The kernel's program reorders the rows of the fused projection weight before its first region, so that each head's
  64 lanes are adjacent; the reference splits the projected channels lane-major instead: the permutation carries one
  order to the other (Proof/Perm.lean, by evaluating the 3072-entry table), so the projected queries, keys and values
  agree entry by entry. And the kernel scales each query by 1/8 before its products with the keys where the reference
  scales the finished score: a nonnegative real factor distributes over any sum of extended reals, so the scores agree
  with no appeal to finiteness (Proof/Spec.lean). Everything after the scores — row maximum, exponentials, row sum,
  quotient, the weighted sum of the value rows, the output projection — is the same expression on both sides; changes
  of float format are the identity here.

  The kernel's side: each region's output array as one function of its input arrays (Proof/Region0.lean,
  Proof/Region1.lean, Proof/Region2.lean), the arrays the first region finds (Proof/Host.lean), the regions chained
  through the contents at their boundaries (Proof/KernelValue.lean), and the run that ends with the result array at
  the last boundary's contents (Proof/KernelRun.lean). The reference's side: its result stage read at an index
  (Proof/Reference.lean) over its run. The two whole-array functions are one (Proof/Bridge.lean).
-/
import proofs.«410984_j6485400617573_3_alg».proof.Defs
import proofs.«410984_j6485400617573_3_alg».proof.Proof.Gen.Kernel
import proofs.«410984_j6485400617573_3_alg».proof.Proof.Gen.Kernel.Skeleton
import proofs.«410984_j6485400617573_3_alg».proof.Proof.Gen.Kernel.Launch
import proofs.«410984_j6485400617573_3_alg».proof.Proof.Gen.Kernel.Points
import proofs.«410984_j6485400617573_3_alg».proof.Proof.Gen.Kernel.Frame
import proofs.«410984_j6485400617573_3_alg».proof.Proof.Gen.KernelIdeal
import proofs.«410984_j6485400617573_3_alg».proof.Proof.Gen.KernelIdeal.Skeleton
import proofs.«410984_j6485400617573_3_alg».proof.Proof.Gen.KernelIdeal.Launch
import proofs.«410984_j6485400617573_3_alg».proof.Proof.Gen.KernelIdeal.Points
import proofs.«410984_j6485400617573_3_alg».proof.Proof.Gen.KernelIdeal.Frame
import proofs.«410984_j6485400617573_3_alg».proof.Proof.Gen.ReferenceIdeal
import proofs.«410984_j6485400617573_3_alg».proof.Proof.Gen.Pre_finite_inputs
import proofs.«410984_j6485400617573_3_alg».proof.Proof.Gen.ReferenceIdeal.Run
import proofs.«410984_j6485400617573_3_alg».proof.Proof.Gen.ReferenceIdeal.Read
import proofs.«410984_j6485400617573_3_alg».proof.Proof.KernelRun
import proofs.«410984_j6485400617573_3_alg».proof.Proof.KernelValue
import proofs.«410984_j6485400617573_3_alg».proof.Proof.Reference
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's result term is the same whole-array function of the arguments the kernel's result array ends at. -/
theorem reference_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.ReferenceIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    (Cert.ReferenceIdeal.Value.res_main_v26 (F := Ideal) m' c : Cert.ReferenceIdeal.S4x2048x1024.Idx → EReal)
      = Cert.AttnK.Value.result m c := by
  rw [Cert.ReferenceIdeal.Read.val_main_v26_eq, h0, h1, h2]
  funext i
  obtain ⟨b, s, f, rfl⟩ : ∃ (b : Fin 4) (s : Fin 2048) (f : Fin 1024), i = ix3 b s f := ⟨i 0, i 1, i 2, eq_ix3 i⟩
  exact Cert.AttnR.ref_value _ _ _ b s f

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no region: its frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result at one function of the arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.AttnK.Value.result m c, ?_, ?_⟩
  · exact (θ_run Cert.KernelIdeal.defs _ _).mono
      (fun _ h c => ⟨(h c).1.trans (Cert.AttnK.Value.W4_result m ρ c), (h c).2⟩)
      (Cert.AttnK.Run.run_value (F := Ideal) m ρ)
  · exact (θ_run Cert.ReferenceIdeal.defs _ _).mono
      (fun _ h c => ⟨(h c).1.trans (reference_result m m' c (hagree c).1 (hagree c).2.1 (hagree c).2.2), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
